-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x64 .f32) (main_arg1 : IVec S800000 32) (main_arg2 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_c_0 : IVec S_ 32 := constantI S_ 32 0#32
  let main_v4 : IVec S800000 32 := broadcastInDim S800000 ![] bcast_S_S800000 main_c_0
  let main_v5 : IVec S800000 1 := cmpi .sge main_arg1 main_v4
  let main_c_1 : IVec S_ 32 := constantI S_ 32 50000#32
  let main_v6 : IVec S800000 32 := broadcastInDim S800000 ![] bcast_S_S800000 main_c_1
  let main_v7 : IVec S800000 1 := cmpi .slt main_arg1 main_v6
  let main_v8 : IVec S800000 1 := andi main_v5 main_v7
  let main_c_2 : IVec S_ 1 := constantI S_ 1 1#1
  let main_v9 : IVec S_ 1 := (fun x v => Host.reduce IntOp.andi x v reducesTo_S800000_S_d0 h_S_) main_v8 main_c_2
  let main_v10 : IVec S_ 1 := andi main_v3 main_v9
  main_v10
-- ==== Kernel.lean ====
abbrev S50000x64 : Shape := ⟨2, ![50000, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50048x64 : Shape := ⟨2, ![50048, 64]⟩
abbrev S2x50048x64 : Shape := ⟨3, ![2, 50048, 64]⟩
abbrev S128 : Shape := ⟨1, ![128]⟩
abbrev S1x50048x64 : Shape := ⟨3, ![1, 50048, 64]⟩
abbrev S1x50048 : Shape := ⟨2, ![1, 50048]⟩
abbrev S128x50048 : Shape := ⟨2, ![128, 50048]⟩
abbrev S128x1 : Shape := ⟨2, ![128, 1]⟩
abbrev S128x64 : Shape := ⟨2, ![128, 64]⟩

abbrev nBuf : Space → Nat
  | .hbm => 40
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S_, .f32⟩
  | .hbm, ⟨4, _⟩ => ⟨S800000, .f32⟩
  | .hbm, ⟨5, _⟩ => ⟨S_, .f32⟩
  | .hbm, ⟨6, _⟩ => ⟨S50000, .f32⟩
  | .hbm, ⟨7, _⟩ => ⟨S800000x1, .i32⟩
  | .hbm, ⟨8, _⟩ => ⟨S50000, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000, .f32⟩
  | .hbm, ⟨27, _⟩ => ⟨S800000, .f32⟩
  | .hbm, ⟨28, _⟩ => ⟨S800000, .f32⟩
  | .hbm, ⟨29, _⟩ => ⟨S_, .f32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S_, .f32⟩
  | .hbm, ⟨34, _⟩ => ⟨S50048x64, .f32⟩
  | .hbm, ⟨35, _⟩ => ⟨S50048x64, .bf16⟩
  | .hbm, ⟨36, _⟩ => ⟨S2x50048x64, .f32⟩
  | .hbm, ⟨37, _⟩ => ⟨S_, .f32⟩
  | .hbm, ⟨38, _⟩ => ⟨S50048x64, .f32⟩
  | .hbm, ⟨39, _⟩ => ⟨S50000x64, .f32⟩
  | .local _ .vmem, ⟨0, _⟩ => ⟨S50048x64, .bf16⟩
  | .local _ .vmem, ⟨1, _⟩ => ⟨S128, .i32⟩
  | .local _ .vmem, ⟨2, _⟩ => ⟨S128, .i32⟩
  | .local _ .vmem, ⟨3, _⟩ => ⟨S128, .i32⟩
  | .local _ .vmem, ⟨4, _⟩ => ⟨S128, .i32⟩
  | .local _ .vmem, ⟨5, _⟩ => ⟨S128, .f32⟩
  | .local _ .vmem, ⟨6, _⟩ => ⟨S128, .f32⟩
  | .local _ .vmem, ⟨7, _⟩ => ⟨S1x50048x64, .f32⟩
  | .local _ .vmem, ⟨8, _⟩ => ⟨S1x50048, .i32⟩
  | .local _ .vmem, ⟨9, _⟩ => ⟨S128x50048, .bf16⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 3125], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_3 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S50048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x50048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S50000x64_S50048x64_0480_000 : S50000x64.Pads (![0, 0] : Fin 2 → Nat) ![48, 0] ![0, 0] S50048x64
  h_S_ : 0 < S_.numel
  bitsLt_bf16_f32 : FTy.bits .bf16 < FTy.bits .f32
  inb_S1x50048x64_S1x50048x64_0_0_0 : ∀ a, (![0, 0, 0] : Fin 3 → Nat) a + S1x50048x64.size a ≤ S1x50048x64.size a
  h_S1x50048x64 : 0 < S1x50048x64.numel
  shapeCasts_S1x50048x64_S50048x64 : S1x50048x64.ShapeCasts S50048x64
  shapeCasts_S50048x64_S1x50048x64 : S50048x64.ShapeCasts S1x50048x64
  iota_S1x50048_d1_w32 : S1x50048.Iotas .tc 32 [1]
  inb_S1x50048_S1x50048_0_0 : ∀ a, (![0, 0] : Fin 2 → Nat) a + S1x50048.size a ≤ S1x50048.size a
  h_S1x50048 : 0 < S1x50048.numel
  shapeCasts_S1x50048_S1x50048 : S1x50048.ShapeCasts S1x50048
  inb_S128_S128_0 : ∀ a, (![0] : Fin 1 → Nat) a + S128.size a ≤ S128.size a
  h_S128 : 0 < S128.numel
  shapeCasts_S128_S128x1 : S128.ShapeCasts S128x1
  shapeCasts_S128_S128 : S128.ShapeCasts S128
  broadcasts_S1x50048_S128x50048 : S1x50048.Broadcasts S128x50048
  broadcasts_S128x1_S128x50048 : S128x1.Broadcasts S128x50048
  natLt_1_32 : 1 < 32
  inb_S128x50048_S128x50048_0_0 : ∀ a, (![0, 0] : Fin 2 → Nat) a + S128x50048.size a ≤ S128x50048.size a
  h_S128x50048 : 0 < S128x50048.numel
  shapeCasts_S128x50048_S128x50048 : S128x50048.ShapeCasts S128x50048
  packedbf16_S128x50048_S128x50048_0_0 : (Rect.unit (s := S128x50048) ![0, 0] S128x50048.size inb_S128x50048_S128x50048_0_0).PackedRows (EltTy.packing .bf16)
  inb_S50048x64_S50048x64_0_0 : ∀ a, (![0, 0] : Fin 2 → Nat) a + S50048x64.size a ≤ S50048x64.size a
  h_S50048x64 : 0 < S50048x64.numel
  shapeCasts_S50048x64_S50048x64 : S50048x64.ShapeCasts S50048x64
  broadcasts_S128x1_S128x64 : S128x1.Broadcasts S128x64
  reducesTo_S2x50048x64_S50048x64_d0 : S2x50048x64.ReducesTo [0] S50048x64
  slices_S50048x64_S50000x64_0_0 : S50048x64.Slices ![0, 0] S50000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S128x50048_S50048x64_S128x64_1_0_0_1_n_n_wf : DotDims.WF S128x50048 S50048x64 S128x64 [1] [0] [0] [1] [] []
  dot_S128x50048_S128x64_S50048x64_0_0_1_1_n_n_wf : DotDims.WF S128x50048 S128x64 S50048x64 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S50048x64.size a ≤ S50048x64.size a
  hwx0_0 : ∀ i : grid0.Coords, EltTy.bits .bf16 = 32 ∨ (Rect.block (s := S50048x64) S50048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S800000.size a
  hwx0_1 : ∀ i : grid0.Coords, EltTy.bits .i32 = 32 ∨ (Rect.block (s := S800000) S128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S800000.size a
  hwx0_2 : ∀ i : grid0.Coords, EltTy.bits .i32 = 32 ∨ (Rect.block (s := S800000) S128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S800000.size a
  hwx0_3 : ∀ i : grid0.Coords, EltTy.bits .f32 = 32 ∨ (Rect.block (s := S800000) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50048x64.size a ≤ S2x50048x64.size a
  hwx0_4 : ∀ i : grid0.Coords, EltTy.bits .f32 = 32 ∨ (Rect.block (s := S2x50048x64) S1x50048x64.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S128x50048_S50048x64_S128x64_1_0_0_1_n_n : DotDims S128x50048 S50048x64 S128x64 where
  lhsContracting := [1]
  rhsContracting := [0]
  lhsNonContracting := [0]
  rhsNonContracting := [1]
  lhsBatch := []
  rhsBatch := []
  wf := dot_S128x50048_S50048x64_S128x64_1_0_0_1_n_n_wf
def dot_S128x50048_S128x64_S50048x64_0_0_1_1_n_n : DotDims S128x50048 S128x64 S50048x64 where
  lhsContracting := [0]
  rhsContracting := [0]
  lhsNonContracting := [1]
  rhsNonContracting := [1]
  lhsBatch := []
  rhsBatch := []
  wf := dot_S128x50048_S128x64_S50048x64_0_0_1_1_n_n_wf

abbrev win0_0 : Pipeline.Window sig grid0 :=
  Pipeline.Window.ofSpec (Memref.whole main_v23) S50048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x50048x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩

abbrev nBuf : Space → Nat
  | .hbm => 48
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S_, .f32⟩
  | .hbm, ⟨4, _⟩ => ⟨S800000, .f32⟩
  | .hbm, ⟨5, _⟩ => ⟨S_, .f32⟩
  | .hbm, ⟨6, _⟩ => ⟨S50000, .f32⟩
  | .hbm, ⟨7, _⟩ => ⟨S800000x1, .i32⟩
  | .hbm, ⟨8, _⟩ => ⟨S50000, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000, .f32⟩
  | .hbm, ⟨27, _⟩ => ⟨S800000, .f32⟩
  | .hbm, ⟨28, _⟩ => ⟨S800000, .f32⟩
  | .hbm, ⟨29, _⟩ => ⟨S_, .f32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S800000x1, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.PiecesIdeal.lean ====
/-
  What one grid point leaves behind, as values. The body keeps a table of node numbers (0, 1, …,
  50047 along a row) in a scratch buffer that it fills at the first point of each half and reuses
  afterwards; from that table and the point's block of 128 edges it forms two 0/1 matrices — row j
  of the first marks the node `src[j]`, row j of the second the node `dst[j]` —, multiplies the
  first into the node features, scales row j by the edge's coefficient, and multiplies the
  transpose of the second into the result: one contribution per node row. A point that opens a half
  adds the contribution to a zero block; every other point adds it to what the point before left.
  Both cases are ONE function `step` of the point's blocks, the node-number table and the
  accumulator found: the two lemmas below read the stores the generated runs recorded back as that.
-/
import proofs.«420406_j83459804496279_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after several stores of which the LAST covered the whole buffer reads
    that store's payload. -/
theorem readCov_cons_whole {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The node-number table the first point of a half writes: entry (0, n) is the word n. -/
abbrev nodeIds : Vec F S1x50048 .i32 := k0_pay3

/-- The zero block a half's accumulator starts from. -/
abbrev zeroAcc : Vec F S1x50048x64 .f32 := k0_pay2

/-- ONE POINT: the accumulator block `acc` plus the contribution of the point's 128 edges — their
    source words `x1`, destination words `x2`, coefficients `x3` — read against the node features
    `x0` through the node-number table `ids`. -/
def step (x0 : Vec F S50048x64 .bf16) (x1 x2 : Vec F S128 .i32) (x3 : Vec F S128 .f32) (ids : Vec F S1x50048 .i32)
    (acc : Vec F S1x50048x64 .f32) : Vec F S1x50048x64 .f32 :=
  k0_pay1 (k0_pay5 x3 (k0_pay4 x1 ids) x0) (k0_pay6 x2 ids) acc

/-- A point inside a half: the accumulator the point before left, stepped, the table as found. -/
theorem out_B (c : Dev nD) (i : grid0.Coords) (a2 : Memref sig .tc .vmem S50048x64 .bf16) (h2 : a2.IsWhole) (a3 : Memref sig .tc .vmem S128 .i32) (h3 : a3.IsWhole) (a4 : Memref sig .tc .vmem S128 .i32) (h4 : a4.IsWhole) (a5 : Memref sig .tc .vmem S128 .f32) (h5 : a5.IsWhole) (a6 : Memref sig .tc .vmem S1x50048x64 .f32) (h6 : a6.IsWhole) (a7 : Memref sig .tc .vmem S1x50048 .i32) (h7 : a7.IsWhole) (a8 : Memref sig .tc .vmem S128x50048 .bf16) (h8 : a8.IsWhole) (hc : ¬cond0_0 i)
    (x0 : Vec F S50048x64 .bf16) (x1 : Vec F S128 .i32) (x2 : Vec F S128 .i32) (x3 : Vec F S128 .f32) (xo4 : Vec F S1x50048x64 .f32) (xs0 : Vec F S1x50048 .i32) :
    out0_B_4 c i a2 h2 a3 h3 a4 h4 a5 h5 a6 h6 a7 h7 a8 h8 hc x0 x1 x2 x3 xo4 xs0 = step x0 x1 x2 x3 xs0 xo4 := by
  unfold out0_B_4
  rw [View.read_writes_eq_canon _ _ _ (cover0_B_4 c i a2 h2 a3 h3 a4 h4 a5 h5 a6 h6 a7 h7 a8 h8 hc x0 x1 x2 x3 xo4 xs0)]
  unfold kernelRun0_B
  dsimp only
  sl_unfold_words
  rw [View.canon_unit_zero hz3]
  unfold step
  simp only [View.readAt_eq_ld, h2.read_unread, h3.read_unread, h4.read_unread, h5.read_unread, h6.read_unread, h7.read_unread,
    View.ld_unit_zero (S := S128) hz1, View.ld_unit_zero (S := S1x50048) hz2, View.ld_unit_zero (S := S50048x64) hz2,
    View.ld_unit_zero (S := S1x50048x64) hz3, readCov_cons_whole (S := S128x50048) _ hz2]

/-- A point that opens a half: the zero block stepped, through the table just written. -/
theorem out_A (c : Dev nD) (i : grid0.Coords) (a2 : Memref sig .tc .vmem S50048x64 .bf16) (h2 : a2.IsWhole) (a3 : Memref sig .tc .vmem S128 .i32) (h3 : a3.IsWhole) (a4 : Memref sig .tc .vmem S128 .i32) (h4 : a4.IsWhole) (a5 : Memref sig .tc .vmem S128 .f32) (h5 : a5.IsWhole) (a6 : Memref sig .tc .vmem S1x50048x64 .f32) (h6 : a6.IsWhole) (a7 : Memref sig .tc .vmem S1x50048 .i32) (h7 : a7.IsWhole) (a8 : Memref sig .tc .vmem S128x50048 .bf16) (h8 : a8.IsWhole) (hc : cond0_0 i)
    (x0 : Vec F S50048x64 .bf16) (x1 : Vec F S128 .i32) (x2 : Vec F S128 .i32) (x3 : Vec F S128 .f32) :
    out0_A_4 c i a2 h2 a3 h3 a4 h4 a5 h5 a6 h6 a7 h7 a8 h8 hc x0 x1 x2 x3 = step x0 x1 x2 x3 nodeIds zeroAcc := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_cons_unit_zero (S := S1x50048x64) hz3]
  unfold step
  simp only [View.readAt_eq_ld, h2.read_unread, h3.read_unread, h4.read_unread, h5.read_unread,
    View.ld_unit_zero (S := S128) hz1, View.ld_unit_zero (S := S50048x64) hz2,
    readCov_cons_whole (S := S128x50048) _ hz2, readCov_cons_whole (S := S1x50048) _ hz2,
    readCov_cons_whole (S := S1x50048x64) _ hz3]

/-- … and it leaves the table of node numbers in the scratch buffer. -/
theorem sout_A (c : Dev nD) (i : grid0.Coords) (a2 : Memref sig .tc .vmem S50048x64 .bf16) (h2 : a2.IsWhole) (a3 : Memref sig .tc .vmem S128 .i32) (h3 : a3.IsWhole) (a4 : Memref sig .tc .vmem S128 .i32) (h4 : a4.IsWhole) (a5 : Memref sig .tc .vmem S128 .f32) (h5 : a5.IsWhole) (a6 : Memref sig .tc .vmem S1x50048x64 .f32) (h6 : a6.IsWhole) (a7 : Memref sig .tc .vmem S1x50048 .i32) (h7 : a7.IsWhole) (a8 : Memref sig .tc .vmem S128x50048 .bf16) (h8 : a8.IsWhole) (hc : cond0_0 i)
    (x0 : Vec F S50048x64 .bf16) (x1 : Vec F S128 .i32) (x2 : Vec F S128 .i32) (x3 : Vec F S128 .f32) :
    sout0_A_0 c i a2 h2 a3 h3 a4 h4 a5 h5 a6 h6 a7 h7 a8 h8 hc x0 x1 x2 x3 = nodeIds := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero hz2]

end Cert.KernelIdeal.Pieces

end
-- ==== Proof.LibDotAt.lean ====
/-
  A contraction of two matrices over one axis, read at one result index: the sum over the
  contraction shape's indices is the sum over `k : Fin K` of the left operand at (the result's row
  coordinate, k) times the right operand at (k, the result's column coordinate), the coordinates
  placed on the axes the dimension numbers name. Two layouts are stated, both without batching axes:
  the plain product [M × K] · [K × N], and the product with the LEFT operand transposed,
  [K × M]ᵀ · [K × N]. The dimension-number record is a variable and its fields are hypotheses.
-/
import Idealize.ShloMosaic.PureOps.Dims
import Idealize.ShloMosaic.Lib.ValueIdx

namespace Cert.LibDotAt

open Idealize.ShloMosaic Idealize.ShloMosaic.ValueIdx
open scoped BigOperators

section General
variable {sl sr so : Shape} (d : DotDims sl sr so)

/-- With no batching axes and one free axis on the left, that axis reads the result's coordinate 0. -/
theorem lhsIdx_val_of_free (hlb : d.lhsBatch = []) {nl : Fin sl.rank} (hln : d.lhsNonContracting = [nl])
    (j : so.Idx) (k : d.contr.Idx) (h0 : 0 < so.rank) : (d.lhsIdx j k nl).val = (j ⟨0, h0⟩).val := by
  have hnb : nl ∉ d.lhsBatch := by rw [hlb]; exact List.not_mem_nil
  have hmem : nl ∈ d.lhsNonContracting := by rw [hln]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln])

/-- With no batching axes and one free axis on each side, the right free axis reads the result's
    coordinate 1. -/
theorem rhsIdx_val_of_free (hlb : d.lhsBatch = []) (hrb : d.rhsBatch = []) {nl : Fin sl.rank}
    (hln : d.lhsNonContracting = [nl]) {nr : Fin sr.rank} (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

end General

/-- The two axes of a rank-2 shape. -/
private theorem fin2_cases (a : Fin 2) : a = 0 ∨ a = 1 := by
  rcases a with ⟨v, hv⟩
  rcases v with _ | _ | v
  · exact Or.inl rfl
  · exact Or.inr rfl
  · omega

variable {M K N : Nat} {α : Type} [AddCommMonoid α]

/-- THE PLAIN PRODUCT [M × K] · [K × N] at (i, j): the sum over k of the terms at (i, k) and (k, j). -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (f : (⟨2, ![M, K]⟩ : Shape).Idx → (⟨2, ![K, N]⟩ : Shape).Idx → α) (i : Fin M) (j : Fin N) :
    ∑ k : d.contr.Idx, f (d.lhsIdx (ix2 i j) k) (d.rhsIdx (ix2 i j) k) = ∑ k : Fin K, f (ix2 i k) (ix2 k j) := by
  have hr : d.contr.rank = 1 := by rw [d.rank_contr, hlc]; rfl
  have hs : d.contr.size ⟨0, by omega⟩ = K := by
    rw [d.size_contr 0 (by rw [hlc]; exact Nat.one_pos)]
    simp only [hlc, List.getElem_cons_zero]
    rfl
  rw [← Equiv.sum_comp (contrEquiv1 d K hr hs).symm]
  apply Finset.sum_congr rfl
  intro k _
  have hl : d.lhsIdx (ix2 i j) ((contrEquiv1 d K hr hs).symm k) = ix2 i k := by
    funext a
    apply Fin.ext
    rcases fin2_cases a with rfl | rfl
    · exact lhsIdx_val_of_free d hlb hln _ _ (show 0 < 2 from Nat.zero_lt_two)
    · exact (d.lhsIdx_val_of_single hlc _ _).trans (contrEquiv1_symm_val d K hr hs k)
  have hrr : d.rhsIdx (ix2 i j) ((contrEquiv1 d K hr hs).symm k) = ix2 k j := by
    funext a
    apply Fin.ext
    rcases fin2_cases a with rfl | rfl
    · exact (d.rhsIdx_val_of_single hrc _ _).trans (contrEquiv1_symm_val d K hr hs k)
    · exact rhsIdx_val_of_free d hlb hrb hln hrn _ _ (show 1 < 2 from Nat.one_lt_two)
  rw [hl, hrr]

/-- THE PRODUCT WITH THE LEFT OPERAND TRANSPOSED, [K × M]ᵀ · [K × N], at (i, j): the sum over k of
    the terms at (k, i) and (k, j). -/
theorem sum_lhsT (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (f : (⟨2, ![K, M]⟩ : Shape).Idx → (⟨2, ![K, N]⟩ : Shape).Idx → α) (i : Fin M) (j : Fin N) :
    ∑ k : d.contr.Idx, f (d.lhsIdx (ix2 i j) k) (d.rhsIdx (ix2 i j) k) = ∑ k : Fin K, f (ix2 k i) (ix2 k j) := by
  have hr : d.contr.rank = 1 := by rw [d.rank_contr, hlc]; rfl
  have hs : d.contr.size ⟨0, by omega⟩ = K := by
    rw [d.size_contr 0 (by rw [hlc]; exact Nat.one_pos)]
    simp only [hlc, List.getElem_cons_zero]
    rfl
  rw [← Equiv.sum_comp (contrEquiv1 d K hr hs).symm]
  apply Finset.sum_congr rfl
  intro k _
  have hl : d.lhsIdx (ix2 i j) ((contrEquiv1 d K hr hs).symm k) = ix2 k i := by
    funext a
    apply Fin.ext
    rcases fin2_cases a with rfl | rfl
    · exact (d.lhsIdx_val_of_single hlc _ _).trans (contrEquiv1_symm_val d K hr hs k)
    · exact lhsIdx_val_of_free d hlb hln _ _ (show 0 < 2 from Nat.zero_lt_two)
  have hrr : d.rhsIdx (ix2 i j) ((contrEquiv1 d K hr hs).symm k) = ix2 k j := by
    funext a
    apply Fin.ext
    rcases fin2_cases a with rfl | rfl
    · exact (d.rhsIdx_val_of_single hrc _ _).trans (contrEquiv1_symm_val d K hr hs k)
    · exact rhsIdx_val_of_free d hlb hrb hln hrn _ _ (show 1 < 2 from Nat.one_lt_two)
  rw [hl, hrr]

end Cert.LibDotAt
-- ==== Proof.StepAt.lean ====
/-
  One grid point's update of the accumulator, read at a node row `n` and a feature column `c` over
  the extended reals: the accumulator's entry plus, over the point's 128 edges j, the 0/1 mark
  "n is dst[j]" times the edge's message — the sum over all node rows n' of the 0/1 mark "n' is
  src[j]" times the feature x[n', c], scaled by the edge's coefficient. The marks compare the words
  themselves: row n' of the node-number table holds the word n'. Changes of float format are the
  identity here, so the bf16 casts of the marks, of the features and of the message vanish.
-/
import proofs.«420406_j83459804496279_2_alg».proof.Proof.PiecesIdeal
import proofs.«420406_j83459804496279_2_alg».proof.Proof.LibDotAt
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.StepAt

open Cert.KernelIdeal Cert.KernelIdeal.Gen Cert.KernelIdeal.Pieces
open Idealize.ShloMosaic Idealize.ShloMosaic.ValueIdx
open scoped BigOperators

/-- A 0/1 word widened and converted: the extended real 1 where the two words are equal, 0 where not. -/
theorem mark_val (a b : BitVec 32) :
    (FloatOps.sitofp (F := Ideal) .f32 ((IntOp.cmpi .eq a b).setWidth 32) : EReal) = if a = b then 1 else 0 := by
  by_cases h : a = b
  · have e : IntOp.cmpi .eq a b = 1#1 := StableHlo.Predicate.cmpi_eq_iff.2 h
    rw [e, if_pos h]
    show ((((1#1 : BitVec 1).setWidth 32).toInt : ℝ) : EReal) = 1
    rw [show ((1#1 : BitVec 1).setWidth 32).toInt = 1 from by decide]
    simp
  · have e : IntOp.cmpi .eq a b = 0#1 := eq_zero_of_ne_one fun h1 => h (StableHlo.Predicate.cmpi_eq_iff.1 h1)
    rw [e, if_neg h]
    show ((((0#1 : BitVec 1).setWidth 32).toInt : ℝ) : EReal) = 0
    rw [show ((0#1 : BitVec 1).setWidth 32).toInt = 0 from by decide]
    simp

/-- A vector cast to a column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A column broadcast along rows reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (0, n) of the node-number table is the word n. -/
theorem nodeIds_apply (n : Fin 50048) : (nodeIds (F := Ideal)) (ix2 (0 : Fin 1) n) = BitVec.ofNat 32 n.val := by
  unfold nodeIds k0_pay3
  rw [shapeCast_self]
  exact iota_single_apply _ _ _ _ _ _

/-- The mark matrix of a block of words against the node-number table: entry (j, n) is 1 where the
    word n is `w[j]`, else 0 (the `src` marks). -/
theorem marks_src_apply (w : Vec Ideal S128 .i32) (j : Fin 128) (n : Fin 50048) :
    k0_pay4 (F := Ideal) w nodeIds (ix2 j n) = if BitVec.ofNat 32 n.val = w (ix1 j) then (1 : EReal) else 0 := by
  unfold k0_pay4
  rw [shapeCast_self]
  show FloatOps.sitofp (F := Ideal) .f32 ((IntOp.cmpi .eq
      (broadcastTo S128x50048 (nodeIds (F := Ideal)) broadcasts_S1x50048_S128x50048 (ix2 j n))
      (broadcastTo S128x50048 (shapeCast S128x1 w shapeCasts_S128_S128x1) broadcasts_S128x1_S128x50048 (ix2 j n))).setWidth 32) = _
  rw [broadcastTo_1b_ab_apply, broadcastTo_a1_ab_apply, shapeCast_a_a1_apply, nodeIds_apply, mark_val]

/-- The same for the `dst` marks. -/
theorem marks_dst_apply (w : Vec Ideal S128 .i32) (j : Fin 128) (n : Fin 50048) :
    k0_pay6 (F := Ideal) w nodeIds (ix2 j n) = if BitVec.ofNat 32 n.val = w (ix1 j) then (1 : EReal) else 0 := by
  unfold k0_pay6
  rw [shapeCast_self]
  show FloatOps.sitofp (F := Ideal) .f32 ((IntOp.cmpi .eq
      (broadcastTo S128x50048 (nodeIds (F := Ideal)) broadcasts_S1x50048_S128x50048 (ix2 j n))
      (broadcastTo S128x50048 (shapeCast S128x1 w shapeCasts_S128_S128x1) broadcasts_S128x1_S128x50048 (ix2 j n))).setWidth 32) = _
  rw [broadcastTo_1b_ab_apply, broadcastTo_a1_ab_apply, shapeCast_a_a1_apply, nodeIds_apply, mark_val]

/-- An edge's message: the marked sum of the feature column, scaled by the edge's coefficient. -/
theorem message_apply (x0 : Vec Ideal S50048x64 .bf16) (mk : Vec Ideal S128x50048 .bf16) (x3 : Vec Ideal S128 .f32)
    (j : Fin 128) (c : Fin 64) :
    k0_pay5 (F := Ideal) x3 mk x0 (ix2 j c) = (∑ n : Fin 50048, mk (ix2 j n) * x0 (ix2 n c)) * x3 (ix1 j) := by
  unfold k0_pay5
  rw [truncf_apply, mulf_apply]
  simp only [matmul, shapeCast_self]
  rw [Ideal.matmul_constant_zero_apply, broadcastTo_a1_ab_apply, shapeCast_a_a1_apply]
  rw [Cert.LibDotAt.sum_plain dot_S128x50048_S50048x64_S128x64_1_0_0_1_n_n rfl rfl rfl rfl rfl rfl (fun a b => mk a * x0 b)]

/-- THE STEP AT AN INDEX. -/
theorem step_apply (x0 : Vec Ideal S50048x64 .bf16) (x1 x2 : Vec Ideal S128 .i32) (x3 : Vec Ideal S128 .f32)
    (acc : Vec Ideal S1x50048x64 .f32) (n : Fin 50048) (c : Fin 64) :
    step (F := Ideal) x0 x1 x2 x3 nodeIds acc (ix3 (0 : Fin 1) n c)
      = acc (ix3 (0 : Fin 1) n c)
        + ∑ j : Fin 128, (if BitVec.ofNat 32 n.val = x2 (ix1 j) then (1 : EReal) else 0)
            * ((∑ n' : Fin 50048, (if BitVec.ofNat 32 n'.val = x1 (ix1 j) then (1 : EReal) else 0) * x0 (ix2 n' c)) * x3 (ix1 j)) := by
  unfold step k0_pay1
  rw [shapeCast_ab_1ab_apply, addf_apply, shapeCast_1ab_ab_apply]
  simp only [matmul]
  rw [Ideal.matmul_constant_zero_apply]
  rw [Cert.LibDotAt.sum_lhsT dot_S128x50048_S128x64_S50048x64_0_0_1_1_n_n rfl rfl rfl rfl rfl rfl
    (fun a b => k0_pay6 (F := Ideal) x2 nodeIds a * k0_pay5 (F := Ideal) x3 (k0_pay4 (F := Ideal) x1 nodeIds) x0 b)]
  refine congrArg (fun z => acc (ix3 (0 : Fin 1) n c) + z) (Finset.sum_congr rfl fun j _ => ?_)
  rw [marks_dst_apply, message_apply]
  refine congrArg (fun z => (if BitVec.ofNat 32 n.val = x2 (ix1 j) then (1 : EReal) else 0) * (z * x3 (ix1 j)))
    (Finset.sum_congr rfl fun n' _ => ?_)
  rw [marks_src_apply]

end Cert.KernelIdeal.StepAt

end
-- ==== Proof.Sums.lean ====
/-
  Sums over the extended reals that the two programs' comparison rests on. Nothing here mentions a
  program: a one-hot row against a column picks one entry; an accumulator that is reset every `L`
  steps holds, `k` steps after a reset, the sum of the `k + 1` contributions since; and a sum over
  `a * b` consecutive positions is the double sum over `a` groups of `b`.
-/
import Idealize.ShloMosaic.PureOps.Ideal

namespace Cert.Sgc

open scoped BigOperators

/-- A one-hot row times a column, summed: the column's entry at the hot position. Over the extended
    reals `0 * y = 0` for every `y`, infinite ones included, so nothing is asked of `f`. -/
theorem sum_onehot_mul {ι : Type} [Fintype ι] [DecidableEq ι] (s : ι) (f : ι → EReal) :
    ∑ n, (if n = s then (1 : EReal) else 0) * f n = f s := by
  rw [Finset.sum_eq_single s]
  · simp
  · intro b _ hb; simp [hb]
  · intro h; exact absurd (Finset.mem_univ s) h

/-- An accumulator that takes the contribution `C t` at step `t`, starting afresh at every step that
    is a multiple of `L`. -/
def runSum {M : Type} [Add M] (L : ℕ) (C : ℕ → M) : ℕ → M
  | 0 => C 0
  | t + 1 => if (t + 1) % L = 0 then C (t + 1) else runSum L C t + C (t + 1)

/-- `k` steps after the reset at `L * p` the accumulator holds the contributions `L * p, …, L * p + k`. -/
theorem runSum_eq {M : Type} [AddCommMonoid M] (L : ℕ) (C : ℕ → M) (p : ℕ) :
    ∀ k, k < L → runSum L C (L * p + k) = ∑ k' ∈ Finset.range (k + 1), C (L * p + k')
  | 0, hL => by
    rw [Finset.sum_range_one, Nat.add_zero]
    cases hp : L * p with
    | zero => rfl
    | succ n =>
      have : (n + 1) % L = 0 := by rw [← hp]; exact Nat.mul_mod_right L p
      show (if (n + 1) % L = 0 then C (n + 1) else _) = _
      rw [if_pos this]
  | k + 1, hk => by
    have hne : ¬ (L * p + k + 1) % L = 0 := by
      rw [Nat.add_assoc, Nat.mul_add_mod, Nat.mod_eq_of_lt hk]; exact Nat.succ_ne_zero k
    show (if (L * p + k + 1) % L = 0 then _ else runSum L C (L * p + k) + C (L * p + k + 1)) = _
    rw [if_neg hne, runSum_eq L C p k (Nat.lt_of_succ_lt hk), Finset.sum_range_succ _ (k + 1)]
    rfl

/-- A sum over `a * b` positions, grouped: position `b * i + j` is the `j`-th of group `i`. -/
theorem sum_fin_mul {M : Type} [AddCommMonoid M] (a b : ℕ) (f : Fin (a * b) → M) :
    ∑ e, f e = ∑ i : Fin a, ∑ j : Fin b, f ⟨b * i.val + j.val, by
      have := i.isLt; have := j.isLt
      calc b * i.val + j.val < b * i.val + b := by omega
        _ = b * (i.val + 1) := by ring
        _ ≤ b * a := Nat.mul_le_mul_left b (by omega)
        _ = a * b := Nat.mul_comm b a⟩ := by
  rw [← Fintype.sum_prod_type', ← (finProdFinEquiv (m := a) (n := b)).sum_comp]
  apply Finset.sum_congr rfl
  intro x _
  congr 1
  apply Fin.ext
  simp [finProdFinEquiv, Nat.add_comm]

end Cert.Sgc
-- ==== Proof.Accum.lean ====
/-
  The accumulator point by point. The grid runs two halves of 3125 points; point t = 3125·p + k
  handles edges 128·t … 128·t + 127. What the output block's staging buffer and the node-number
  scratch hold after point t is, by induction on t, the chain of `step`s since the half opened (the
  zero block at t ≡ 0 mod 3125), the scratch always the table of node numbers. Read at a node row
  and a feature column over the extended reals, the chain is a running sum that starts afresh every
  3125 points: k steps into half p it is the sum of the k + 1 points' contributions.
-/
import proofs.«420406_j83459804496279_2_alg».proof.Proof.StepAt
import proofs.«420406_j83459804496279_2_alg».proof.Proof.Sums

set_option maxRecDepth 16384

noncomputable section

namespace Cert.KernelIdeal.Accum

open Cert.KernelIdeal Cert.KernelIdeal.Gen Cert.KernelIdeal.Pieces Cert.KernelIdeal.StepAt
open Idealize.ShloMosaic Idealize.ShloMosaic.TcCoe Idealize.ShloMosaic.ValueIdx Idealize.SL.Sem
open scoped BigOperators

section AnyF
variable {F : FTy → Type} [FloatOps F]
variable (m : (ℓ : Loc nD τ sig) → Buf (Elt F) ℓ)

/-- The point's blocks, at their literal types: the node features (the whole padded table at every
    point), the 128 source words, the 128 destination words, the 128 coefficients. -/
abbrev xblk (c : Dev nD) (t : Fin cfg0.N) : Vec F S50048x64 .bf16 := iblk m c 0 t
abbrev sblk (c : Dev nD) (t : Fin cfg0.N) : Vec F S128 .i32 := iblk m c 1 t
abbrev dblk (c : Dev nD) (t : Fin cfg0.N) : Vec F S128 .i32 := iblk m c 2 t
abbrev nblk (c : Dev nD) (t : Fin cfg0.N) : Vec F S128 .f32 := iblk m c 3 t

/-- The accumulator block after point `n`: the point's step of the zero block when `n` opens a
    half, else of the accumulator after point `n - 1`. -/
def acc (c : Dev nD) : (n : ℕ) → n < cfg0.N → Vec F S1x50048x64 .f32
  | 0, h => step (xblk m c ⟨0, h⟩) (sblk m c ⟨0, h⟩) (dblk m c ⟨0, h⟩) (nblk m c ⟨0, h⟩) nodeIds zeroAcc
  | n + 1, h => step (xblk m c ⟨n + 1, h⟩) (sblk m c ⟨n + 1, h⟩) (dblk m c ⟨n + 1, h⟩) (nblk m c ⟨n + 1, h⟩) nodeIds
      (if (n + 1) % 3125 = 0 then zeroAcc else acc c n (Nat.lt_of_succ_lt h))

/-- What the generated run records after point `n` — the output block and the scratch — is that
    accumulator and the table of node numbers. -/
theorem outsAt_eq (c : Dev nD) : ∀ (n : ℕ) (h : n < cfg0.N), outsAt0 m c n h = (acc m c n h, nodeIds)
  | 0, h => by
    rw [outsAt0_A m c ⟨0, h⟩ rfl]
    exact congrArg₂ Prod.mk (out_A ..) (sout_A ..)
  | n + 1, h => by
    by_cases h0 : (n + 1) % 3125 = 0
    · rw [outsAt0_A m c ⟨n + 1, h⟩ h0]
      refine congrArg₂ Prod.mk ((out_A ..).trans ?_) (sout_A ..)
      show _ = step _ _ _ _ nodeIds (if (n + 1) % 3125 = 0 then zeroAcc else _)
      rw [if_pos h0]
    · rw [outsAt0_B m c ⟨n + 1, h⟩ h0]
      have ih := outsAt_eq c n (Nat.lt_of_succ_lt h)
      refine congrArg₂ Prod.mk ((out_B ..).trans ?_) ?_
      · show step _ _ _ _ (outsAt0 m c n _).2 (outsAt0 m c n _).1
            = step _ _ _ _ nodeIds (if (n + 1) % 3125 = 0 then zeroAcc else acc m c n _)
        rw [if_neg h0, ih]
      · show (outsAt0 m c n _).2 = nodeIds
        rw [ih]

end AnyF

variable (m : (ℓ : Loc nD τ sig) → Buf (Elt Ideal) ℓ)

/-- The zero block is zero. -/
theorem zeroAcc_apply (i : S1x50048x64.Idx) : (zeroAcc (F := Ideal)) i = 0 := by
  show Ideal.ofBits .f32 0x00000000#32 = 0
  exact Ideal.ofBits_zero_f32

/-- Point `t`'s contribution to node row `n`, feature column `d`: over the point's edges j, the mark
    "n is dst[j]" times the message of edge j. -/
def contrib (c : Dev nD) (n : Fin 50048) (d : Fin 64) (t : Fin cfg0.N) : EReal :=
  ∑ j : Fin 128, (if BitVec.ofNat 32 n.val = dblk m c t (ix1 j) then (1 : EReal) else 0)
    * ((∑ n' : Fin 50048, (if BitVec.ofNat 32 n'.val = sblk m c t (ix1 j) then (1 : EReal) else 0) * xblk m c t (ix2 n' d))
        * nblk m c t (ix1 j))

/-- The same as a function of the point's number, zero past the grid. -/
def contribN (c : Dev nD) (n : Fin 50048) (d : Fin 64) (t : ℕ) : EReal :=
  if h : t < cfg0.N then contrib m c n d ⟨t, h⟩ else 0

/-- The accumulator at an index is the running sum of the contributions, reset every 3125 points. -/
theorem acc_apply (c : Dev nD) (n : Fin 50048) (d : Fin 64) :
    ∀ (t : ℕ) (h : t < cfg0.N), acc m c t h (ix3 (0 : Fin 1) n d) = Cert.Sgc.runSum 3125 (contribN m c n d) t
  | 0, h => by
    show step (F := Ideal) _ _ _ _ nodeIds zeroAcc (ix3 (0 : Fin 1) n d) = contribN m c n d 0
    rw [step_apply, zeroAcc_apply, zero_add]
    unfold contribN
    rw [dif_pos h]
    rfl
  | t + 1, h => by
    show step (F := Ideal) _ _ _ _ nodeIds (if (t + 1) % 3125 = 0 then zeroAcc else acc m c t _) (ix3 (0 : Fin 1) n d)
      = if (t + 1) % 3125 = 0 then contribN m c n d (t + 1) else Cert.Sgc.runSum 3125 (contribN m c n d) t + contribN m c n d (t + 1)
    have hc : contribN m c n d (t + 1) = contrib m c n d ⟨t + 1, h⟩ := by unfold contribN; rw [dif_pos h]
    rw [step_apply, hc]
    by_cases h0 : (t + 1) % 3125 = 0
    · rw [if_pos h0, if_pos h0, zeroAcc_apply, zero_add]; rfl
    · rw [if_neg h0, if_neg h0, acc_apply c n d t (Nat.lt_of_succ_lt h)]; rfl

/-- So when half `p` closes, its block holds the sum of its 3125 points' contributions. -/
theorem acc_last (c : Dev nD) (n : Fin 50048) (d : Fin 64) (p : ℕ) (h : 3125 * p + 3124 < cfg0.N) :
    acc m c (3125 * p + 3124) h (ix3 (0 : Fin 1) n d) = ∑ k ∈ Finset.range 3125, contribN m c n d (3125 * p + k) := by
  rw [acc_apply, Cert.Sgc.runSum_eq 3125 _ p 3124 (by decide)]

end Cert.KernelIdeal.Accum

end
-- ==== Proof.KValue.lean ====
/-
  The kernel's result array. The output window's block is (half p, all node rows, all columns); it
  is written back once per half, after the half's last point, so the [2, 50048, 64] array ends with
  half p's accumulator as its slab p. After the region the program adds the two slabs and keeps the
  first 50000 node rows: that is the result. The frame run re-posted: the result array at that
  value, the three arguments unchanged.
-/
import proofs.«420406_j83459804496279_2_alg».proof.Proof.Accum
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Pieces Cert.KernelIdeal.Accum
open Idealize.ShloMosaic Idealize.ShloMosaic.TcCoe Idealize.ShloMosaic.ValueIdx Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

theorem N_eq : cfg0.N = 6250 := N_0

/-- The accumulator depends on the point's number only. -/
theorem acc_congr (c : Dev nD) {n n' : ℕ} (e : n = n') (h : n < cfg0.N) (h' : n' < cfg0.N) : acc m c n h = acc m c n' h' := by
  subst e; rfl

/-- The last point of half p. -/
theorem last_lt (p : ℕ) (hp : p < 2) : 3125 * p + 3124 < cfg0.N := by rw [N_eq]; omega

/-- The output array after the run: slab p is half p's accumulator when the half closes. -/
def outArr (c : Dev nD) : S2x50048x64.Idx → Elt F .f32 := fun i =>
  acc m c (3125 * (i 0).val + 3124) (last_lt _ (i 0).isLt) (ix3 (0 : Fin 1) (i 1) (i 2))

/-- The printed index map of the output window, decided over the grid. -/
theorem idx4 : ∀ t : Fin cfg0.N, win0_4.index t (0 : Fin 3) = t.val / 3125 ∧ win0_4.index t (1 : Fin 3) = 0
    ∧ win0_4.index t (2 : Fin 3) = 0 :=
  (by decide +kernel : ∀ t : Fin grid0.N, _)

/-- What a closing point writes back is its slab of `outArr`. -/
theorem flushed_eq (c : Dev nD) (t : Fin cfg0.N) (hf : (cfg0.win 4).flush t = true) :
    (dats m 0 c).flushed 4 t = ((cfg0.win 4).blk t).view.read (Elt F) (outArr m c) := by
  have h3 : t.val % 3125 = 3124 := (flush0_4 t).mp hf
  have hN : t.val < 6250 := lt_of_lt_of_eq t.isLt N_eq
  obtain ⟨e0, e1, e2⟩ := idx4 t
  show (cfg0.win 4).cut (grid0.coords t) ((dats m 0 c).after 4 t) = _
  rw [after0_4, outsAt_eq]
  funext j
  show acc m c t.val t.isLt j = outArr m c (((cfg0.win 4).blk t).view.emb j)
  unfold outArr
  have i0 : ((((cfg0.win 4).blk t).view.emb j) 0).val = win0_4.index t (0 : Fin 3) * 1 + 1 * (j 0).val := rfl
  have i1 : ((((cfg0.win 4).blk t).view.emb j) 1).val = win0_4.index t (1 : Fin 3) * 50048 + 1 * (j 1).val := rfl
  have i2 : ((((cfg0.win 4).blk t).view.emb j) 2).val = win0_4.index t (2 : Fin 3) * 64 + 1 * (j 2).val := rfl
  have j0 : (j 0).val = 0 := by have : (j 0).val < 1 := (j 0).isLt; omega
  have hj : j = ix3 (0 : Fin 1) ((((cfg0.win 4).blk t).view.emb j) 1) ((((cfg0.win 4).blk t).view.emb j) 2) := by
    funext a
    apply Fin.ext
    match a with
    | ⟨0, _⟩ => exact j0
    | ⟨1, _⟩ => show (j 1).val = ((((cfg0.win 4).blk t).view.emb j) 1).val; rw [i1, e1]; omega
    | ⟨2, _⟩ => show (j 2).val = ((((cfg0.win 4).blk t).view.emb j) 2).val; rw [i2, e2]; omega
  rw [acc_congr m c (show t.val = 3125 * ((((cfg0.win 4).blk t).view.emb j) 0).val + 3124 by rw [i0, e0, j0]; omega) t.isLt
    (last_lt _ ((((cfg0.win 4).blk t).view.emb j) 0).isLt)]
  exact congrArg _ hj

/-- An index of the array is in point t's block iff each coordinate is in the block's range on its axis. -/
theorem mem_blk (t : Fin cfg0.N) (i : S2x50048x64.Idx) :
    i ∈ ((cfg0.win 4).blk t).view.set ↔ ∀ a : Fin 3, win0_4.index t a * S1x50048x64.size a ≤ (i a).val
      ∧ (i a).val < win0_4.index t a * S1x50048x64.size a + S1x50048x64.size a := by
  show i ∈ ((View.whole main_v24).slice (win0_4.rect t)).set ↔ _
  rw [View.set_slice_whole, Rect.mem_set_unit]
  exact Iff.rfl

/-- So the array ends holding `outArr`: slab p is covered by the closing point of half p. -/
theorem final (c : Dev nD) : (dats m 0 c).arrAt 4 cfg0.N = outArr m c :=
  (dats m 0 c).arrAt_eq_of_cover 4 (outArr m c) (flushed_eq m c) fun i => by
    have hi0 : (i 0).val < 2 := (i 0).isLt
    have hi1 : (i 1).val < 50048 := (i 1).isLt
    have hi2 : (i 2).val < 64 := (i 2).isLt
    refine ⟨⟨3125 * (i 0).val + 3124, last_lt _ hi0⟩, (flush0_4 _).mpr (by show (3125 * (i 0).val + 3124) % 3125 = 3124; omega), ?_⟩
    rw [mem_blk]
    obtain ⟨e0, e1, e2⟩ := idx4 ⟨3125 * (i 0).val + 3124, last_lt _ hi0⟩
    have q : (3125 * (i 0).val + 3124) / 3125 = (i 0).val := by omega
    intro a
    match a with
    | ⟨0, _⟩ =>
      show win0_4.index _ (0 : Fin 3) * 1 ≤ (i 0).val ∧ (i 0).val < win0_4.index _ (0 : Fin 3) * 1 + 1
      rw [e0]; dsimp only; omega
    | ⟨1, _⟩ =>
      show win0_4.index _ (1 : Fin 3) * 50048 ≤ (i 1).val ∧ (i 1).val < win0_4.index _ (1 : Fin 3) * 50048 + 50048
      rw [e1]; omega
    | ⟨2, _⟩ =>
      show win0_4.index _ (2 : Fin 3) * 64 ≤ (i 2).val ∧ (i 2).val < win0_4.index _ (2 : Fin 3) * 64 + 64
      rw [e2]; omega

/-- The program's result as a function of the output array: the two slabs added from zero, the first
    50000 rows kept. -/
def result (c : Dev nD) : S50000x64.Idx → Elt F .f32 :=
  extractStridedSlice S50000x64 ![0, 0]
    (Host.reduceAdd (outArr m c) (constant S_ .f32 0x00000000#32) reducesTo_S2x50048x64_S50048x64_d0 h_S_)
    slices_S50048x64_S50000x64_0_0

/-- The host operations after the region leave the result array at that value. -/
theorem tail_eq (c : Dev nD) :
    Pipeline.afterTail₀ cfgs (dats m) 0 (V0 m) [hostOps1] c main_v26 = result m c := by
  unfold Pipeline.afterTail₀
  show StableHlo.after hostOps1 _ (Proc.devRef .tc main_v26) = _
  after_results
  have e : Pipeline.withArrays (cfgs 0).spec c (V0 m c) (fun w => (dats m 0 c).arrAt w (cfgs 0).N) (Proc.tc.devRef main_v24)
      = outArr m c :=
    (Pipeline.withArrays_arr spec0 launch0.win.arr_inj c _ _ 4).trans (final m c)
  rw [e]
  rfl

/-- THE KERNEL'S RUN, READ: every weakly fair execution terminates with the result array at `result`
    and the three arguments as launched. -/
theorem run : θ_run defs (onTc (τ := τ) (main (F := F))) ⟨m, fun _ => 0, ρ⟩ fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.ResultAt.lean ====
/-
  The kernel's result at a node row `v` and a feature column `d`, over the extended reals: the sum of
  the two halves' accumulators at that row and column. The slice keeps rows 0 … 49999 where they
  are; the host's sum over the halves' axis starts from zero and adds the two slabs' entries.
-/
import proofs.«420406_j83459804496279_2_alg».proof.Proof.KValue
import Idealize.ShloMosaic.Lib.ValueLayout
import Idealize.ShloMosaic.PureOps.Ideal.Laws

set_option maxRecDepth 16384

noncomputable section

namespace Cert.KernelIdeal.ResultAt

open Cert.KernelIdeal Cert.KernelIdeal.Gen Cert.KernelIdeal.Accum Cert.KernelIdeal.KValue
open Idealize.ShloMosaic Idealize.ShloMosaic.TcCoe Idealize.ShloMosaic.ValueIdx Idealize.SL.Sem
open scoped BigOperators

variable (m : (ℓ : Loc nD τ sig) → Buf (Elt Ideal) ℓ)

/-- Dropping the halves' axis of (p, n, d) leaves (n, d); -/
theorem drop_ix3 (p : Fin 2) (n : Fin 50048) (d : Fin 64) :
    reducesTo_S2x50048x64_S50048x64_d0.drop (ix3 p n d) = ix2 n d := by
  funext b
  match b with
  | ⟨0, _⟩ => rfl
  | ⟨1, _⟩ => rfl

/-- and an index that drops to (n, d) is (its half, n, d); -/
theorem eq_ix3_of_drop (i : S2x50048x64.Idx) (n : Fin 50048) (d : Fin 64)
    (h : reducesTo_S2x50048x64_S50048x64_d0.drop i = ix2 n d) : i = ix3 (i 0) n d := by
  funext a
  match a with
  | ⟨0, _⟩ => rfl
  | ⟨1, _⟩ => exact congrFun h 0
  | ⟨2, _⟩ => exact congrFun h 1

/-- so the indices the sum collects at (n, d) are the two (p, n, d). -/
def slabEmb (n : Fin 50048) (d : Fin 64) : Fin 2 ↪ S2x50048x64.Idx :=
  ⟨fun p => ix3 p n d, fun p p' h => by have := congrFun h 0; exact this⟩

theorem filter_drop (n : Fin 50048) (d : Fin 64) :
    Finset.univ.filter (fun i : S2x50048x64.Idx => reducesTo_S2x50048x64_S50048x64_d0.drop i = ix2 n d)
      = Finset.univ.map (slabEmb n d) := by
  ext i
  simp only [Finset.mem_filter, Finset.mem_univ, true_and, Finset.mem_map, slabEmb]
  exact ⟨fun h => ⟨i 0, (eq_ix3_of_drop i n d h).symm⟩, fun ⟨p, hp⟩ => hp ▸ drop_ix3 p n d⟩

/-- THE RESULT AT AN INDEX: the two halves' closing accumulators, added. -/
theorem result_apply (c : Dev nD) (v : Fin 50000) (d : Fin 64) (n : Fin 50048) (hn : n.val = v.val) :
    result (F := Ideal) m c (ix2 v d) = ∑ p : Fin 2, outArr m c (ix3 p n d) := by
  unfold result
  rw [slice2_axis0_apply 0 _ _ v d n (by omega)]
  unfold Host.reduceAdd
  rw [Ideal.hostReduceAdd_def]
  unfold Ideal.hostReduceAdd
  rw [filter_drop, Finset.sum_map]
  show Ideal.ofBits .f32 0x00000000#32 + _ = _
  rw [Ideal.ofBits_zero_f32, zero_add]
  rfl

end Cert.KernelIdeal.ResultAt

end
-- ==== Proof.Blocks.lean ====
/-
  The point's blocks, read off the arrays. Point t's block of the source words, of the destination
  words and of the coefficients is positions 128·t … 128·t + 127 of the array it windows; its block
  of node features is the whole padded table at every point. The arrays as the region finds them:
  the two index arrays are the launch memory's; the padded table is x with 48 zero rows below it
  (the change to bf16 is the identity over the extended reals); the coefficient array is the
  reference's own per-edge coefficient, the same operations applied to the same two index arrays.
-/
import proofs.«420406_j83459804496279_2_alg».proof.Proof.Accum
import proofs.«420406_j83459804496279_2_alg».proof.Proof.Gen.ReferenceIdeal.Read
import Idealize.ShloMosaic.Lib.StableHlo.Run

set_option maxRecDepth 16384

noncomputable section

namespace Cert.KernelIdeal.Blocks

open Cert.KernelIdeal Cert.KernelIdeal.Gen Cert.KernelIdeal.Pieces Cert.KernelIdeal.Accum
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The printed index maps, decided over the grid: the three edge windows sit at block t, the
    feature window at block (0, 0), the output window at block (t / 3125, 0, 0). -/
theorem idx_facts : ∀ t : Fin cfg0.N, win0_1.index t (0 : Fin 1) = t.val ∧ win0_2.index t (0 : Fin 1) = t.val
    ∧ win0_3.index t (0 : Fin 1) = t.val ∧ win0_0.index t (0 : Fin 2) = 0 ∧ win0_0.index t (1 : Fin 2) = 0
    ∧ win0_4.index t (0 : Fin 3) = t.val / 3125 ∧ win0_4.index t (1 : Fin 3) = 0 ∧ win0_4.index t (2 : Fin 3) = 0 :=
  (by decide +kernel : ∀ t : Fin grid0.N, _)

/-- Point t's source word j is the source array's word 128·t + j. -/
theorem sblk_apply (c : Dev nD) (t : Fin cfg0.N) (j : Fin 128) (e : Fin 800000) (he : e.val = 128 * t.val + j.val) :
    sblk m c t (ix1 j) = V m c main_arg1 (ix1 e) := by
  show iblk m c 1 t (ix1 j) = _
  unfold iblk
  rw [View.read_apply]
  show V m c main_arg1 _ = V m c main_arg1 _
  congr 1
  funext a
  apply Fin.ext
  match a with
  | ⟨0, _⟩ =>
    show win0_1.index t (0 : Fin 1) * 128 + 1 * j.val = e.val
    rw [(idx_facts t).1, he]; omega

/-- Point t's destination word j is the destination array's word 128·t + j. -/
theorem dblk_apply (c : Dev nD) (t : Fin cfg0.N) (j : Fin 128) (e : Fin 800000) (he : e.val = 128 * t.val + j.val) :
    dblk m c t (ix1 j) = V m c main_arg2 (ix1 e) := by
  show iblk m c 2 t (ix1 j) = _
  unfold iblk
  rw [View.read_apply]
  show V m c main_arg2 _ = V m c main_arg2 _
  congr 1
  funext a
  apply Fin.ext
  match a with
  | ⟨0, _⟩ =>
    show win0_2.index t (0 : Fin 1) * 128 + 1 * j.val = e.val
    rw [(idx_facts t).2.1, he]; omega

/-- Point t's coefficient j is the coefficient array's entry 128·t + j. -/
theorem nblk_apply (c : Dev nD) (t : Fin cfg0.N) (j : Fin 128) (e : Fin 800000) (he : e.val = 128 * t.val + j.val) :
    nblk m c t (ix1 j) = V m c main_v21 (ix1 e) := by
  show iblk m c 3 t (ix1 j) = _
  unfold iblk
  rw [View.read_apply]
  show V m c main_v21 _ = V m c main_v21 _
  congr 1
  funext a
  apply Fin.ext
  match a with
  | ⟨0, _⟩ =>
    show win0_3.index t (0 : Fin 1) * 128 + 1 * j.val = e.val
    rw [(idx_facts t).2.2.1, he]; omega

/-- Every point's feature block is the whole padded table. -/
theorem xblk_apply (c : Dev nD) (t : Fin cfg0.N) (n : Fin 50048) (d : Fin 64) :
    xblk m c t (ix2 n d) = V m c main_v23 (ix2 n d) := by
  show iblk m c 0 t (ix2 n d) = _
  unfold iblk
  rw [View.read_apply]
  show V m c main_v23 _ = V m c main_v23 _
  congr 1
  funext a
  apply Fin.ext
  obtain ⟨-, -, -, e0, e1, -⟩ := idx_facts t
  match a with
  | ⟨0, _⟩ =>
    show win0_0.index t (0 : Fin 2) * 50048 + 1 * n.val = n.val
    rw [e0]; omega
  | ⟨1, _⟩ =>
    show win0_0.index t (1 : Fin 2) * 64 + 1 * d.val = d.val
    rw [e1]; omega

/-- The coefficient array the region finds is the reference's per-edge coefficient of the two index
    arrays: the kernel's @main computes it with the reference's own operations. -/
theorem V_coef (c : Dev nD) :
    (V m c main_v21 : S800000.Idx → Elt F .f32)
      = Cert.ReferenceIdeal.Read.val_main_v21 (F := F) (m ((c : Thread nD τ).loc main_arg1)) (m ((c : Thread nD τ).loc main_arg2)) := by
  dsimp only [V, V0]
  simp only [hostOps0, hostOps0_1, hostOps0_2, List.flatten_cons, List.flatten_nil, List.append_nil, List.cons_append,
    List.nil_append]
  after_results_simp
  rfl

/-- The padded table the region finds: x with the padding value below it, the format change applied. -/
theorem V_xpad (c : Dev nD) :
    (V m c main_v23 : S50048x64.Idx → Elt F .bf16)
      = truncf .bf16 (pad S50048x64 ![0, 0] ![48, 0] ![0, 0] (m ((c : Thread nD τ).loc main_arg0))
          (sitofp (F := F) .f32 (constantI S_ 32 0#32)) pads_S50000x64_S50048x64_0480_000 h_S_) bitsLt_bf16_f32 := by
  dsimp only [V, V0]
  simp only [hostOps0, hostOps0_1, hostOps0_2, List.flatten_cons, List.flatten_nil, List.append_nil, List.cons_append,
    List.nil_append]
  after_results
  rfl

end Cert.KernelIdeal.Blocks

end
-- ==== Proof.LibGatherAt.lean ====
/-
  A StableHLO gather read at one result index, for three shapes of dimension numbers that have no
  batching axes and the index vector on the start indices' last axis:

  * rows of a matrix chosen by one column of indices (`gather_rows_apply`);
  * rows of a rank-3 array chosen by a pair of indices (`gather_pair_rows_apply`);
  * single entries of a matrix chosen by a pair of indices (`gather_pair_scalar_apply`).

  In each the dimension-number record is a variable and its printed fields are hypotheses, so the
  lemmas hold at every size: on an operand axis named by the start index map the coordinate read is
  the start index's component, taken as a signed integer and clamped so that the slice fits; on an
  axis that is not collapsed it is the result's offset coordinate.
-/
import Idealize.ShloMosaic.PureOps.ShapeOps
import Idealize.ShloMosaic.PureOps.Dims
import Idealize.ShloMosaic.Lib.ValueIdx

namespace Cert.LibIndexing

open Idealize.ShloMosaic Idealize.ShloMosaic.ValueIdx

variable {α : Type} {N R H E w : Nat}

/-- An entry of a one-element list is that element, whatever the position is written as. -/
private theorem getElem_of_eq_singleton {β : Type} {l : List β} {b : β} (hl : l = [b]) (i : Nat)
    (hi : i < l.length) : l[i] = b := by
  subst hl
  have hi0 : i = 0 := by simpa using hi
  subst hi0
  rfl

/-- A multi-index read on two equal axes gives the same number. -/
private theorem idx_val_congr {s : Shape} (j : s.Idx) {a b : Fin s.rank} (hab : a = b) :
    (j a).val = (j b).val := by
  subst hab; rfl

/-- The start-indices position a result index reads, for a two-axis table of start indices whose
    second axis is the index vector's: the row is the result's batch coordinate, the column the
    component's number. -/
private theorem siIdx_eq {s t : Shape} {K : Nat} (d : GatherDims s ⟨2, ![E, K]⟩ t)
    (hivd : d.indexVectorDim = 1) (j : t.Idx) (c : Fin d.startIndexMap.length) (e : Fin E) (k : Fin K)
    (he : ∀ (i : Nat) (hi : i < d.batchDims.length), (j d.batchDims[i]).val = e.val)
    (hk : c.val = k.val) : d.siIdx j c = ix2 e k := by
  funext b
  match b with
  | ⟨0, _⟩ =>
    unfold GatherDims.siIdx
    rw [dif_neg (by rw [hivd]; simp)]
    unfold GatherDims.siCoord
    apply Fin.ext
    simp only [Fin.val_cast]
    exact he _ _
  | ⟨1, _⟩ =>
    unfold GatherDims.siIdx
    rw [dif_pos (by rw [hivd])]
    apply Fin.ext
    exact hk

/-- The two axes of a rank-2 shape. -/
private theorem fin2_cases (a : Fin 2) : a = 0 ∨ a = 1 := by
  rcases a with ⟨v, hv⟩
  rcases v with _ | _ | v
  · exact Or.inl rfl
  · exact Or.inr rfl
  · omega

/-- The three axes of a rank-3 shape. -/
private theorem fin3_cases (a : Fin 3) : a = 0 ∨ a = 1 ∨ a = 2 := by
  rcases a with ⟨v, hv⟩
  rcases v with _ | _ | _ | v
  · exact Or.inl rfl
  · exact Or.inr (Or.inl rfl)
  · exact Or.inr (Or.inr rfl)
  · omega

/-- ONE COLLAPSED, START-INDEXED AXIS. With no batching axes and a two-axis table of start indices
    (index vector on axis 1), the operand coordinate read on an axis `a` that is collapsed and is
    component `k` of the start index map is the table's entry (e, k), read as a signed integer and
    clamped into [0, size − 1]: there is no batching and no offset coordinate there, and the slice
    size is 1. -/
private theorem operandIdx_collapsed {s t : Shape} {K : Nat} (d : GatherDims s ⟨2, ![E, K]⟩ t)
    (hivd : d.indexVectorDim = 1) (hob : d.operandBatchingDims = []) (j : t.Idx)
    (idx : IVec ⟨2, ![E, K]⟩ w) (e : Fin E)
    (he : ∀ (i : Nat) (hi : i < d.batchDims.length), (j d.batchDims[i]).val = e.val)
    (a : Fin s.rank) (k : Fin K) (hc : a ∈ d.collapsedSliceDims) (hm : a ∈ d.startIndexMap)
    (hk : d.startIndexMap.idxOf a = k.val) (hs : d.sliceSizes a = 1) :
    (d.operandIdx j idx a).val = min (idx (ix2 e k)).toInt.toNat (s.size a - 1) := by
  have hb : a ∉ d.operandBatchingDims := by rw [hob]; exact List.not_mem_nil
  have hnk : a ∉ d.sKept := fun hmem => ((d.mem_sKept a).1 hmem).1 hc
  have hsi : d.siIdx j ⟨d.startIndexMap.idxOf a, List.idxOf_lt_length_iff.2 hm⟩ = ix2 e k :=
    siIdx_eq d hivd _ _ e k he hk
  show d.start j idx a + d.batchCoord j a + d.offCoord j a = _
  rw [GatherDims.batchCoord_eq_zero _ _ _ hb, GatherDims.offCoord_eq_zero _ _ _ hnk, Nat.add_zero]
  unfold GatherDims.start
  rw [dif_pos hm, hsi, hs]

/-- THE OFFSET AXIS. With no batching axes and one offset axis `o` of the result, the operand
    coordinate read on an axis `a` that is kept (neither collapsed nor batching) and is not named
    by the start index map is the result's coordinate on `o`: the slice starts at 0 there. -/
private theorem operandIdx_offset {s si t : Shape} (d : GatherDims s si t) (hob : d.operandBatchingDims = [])
    (j : t.Idx) (idx : IVec si w) (a : Fin s.rank) (o : Fin t.rank) (hoff : d.offsetDims = [o])
    (hk : a ∈ d.sKept) (hm : a ∉ d.startIndexMap) : (d.operandIdx j idx a).val = (j o).val := by
  have hb : a ∉ d.operandBatchingDims := by rw [hob]; exact List.not_mem_nil
  show d.start j idx a + d.batchCoord j a + d.offCoord j a = _
  rw [GatherDims.batchCoord_eq_zero _ _ _ hb, Nat.add_zero]
  unfold GatherDims.start GatherDims.offCoord
  rw [dif_neg hm, dif_pos hk, Nat.zero_add]
  exact idx_val_congr j (getElem_of_eq_singleton hoff _ _)

/-- ROWS OF A MATRIX BY ONE INDEX COLUMN. The gather whose start indices are an [E × 1] column,
    whose operand axis 0 is collapsed and start-indexed and whose operand axis 1 is the result's
    offset axis reads, at result position (e, h), the matrix at row `idx[e, 0]` — read as a signed
    integer and clamped into [0, N − 1] — and column `h`. -/
theorem gather_rows_apply (d : GatherDims ⟨2, ![N, H]⟩ ⟨2, ![E, 1]⟩ ⟨2, ![E, H]⟩)
    (hoff : d.offsetDims = [1]) (hcoll : d.collapsedSliceDims = [0]) (hob : d.operandBatchingDims = [])
    (hsim : d.startIndexMap = [0]) (hivd : d.indexVectorDim = 1) (hsl : d.sliceSizes = ![1, H])
    (x : (⟨2, ![N, H]⟩ : Shape).Idx → α) (idx : IVec ⟨2, ![E, 1]⟩ w) (e : Fin E) (h : Fin H) (hN : 0 < N) :
    Host.gather d x idx (ix2 e h) = x (ix2 ⟨min (idx (ix2 e (0 : Fin 1))).toInt.toNat (N - 1), by omega⟩ h) := by
  unfold Host.gather
  congr 1
  -- the result's one batch axis is axis 0: the axes of [E × H] outside the offset axes [1]
  have hbd : d.batchDims = [0] := by
    show Shape.kept _ d.offsetDims = [0]
    rw [hoff]; rfl
  have he : ∀ (i : Nat) (hi : i < d.batchDims.length), ((ix2 e h : (⟨2, ![E, H]⟩ : Shape).Idx) d.batchDims[i]).val = e.val :=
    fun i hi => idx_val_congr (ix2 e h) (getElem_of_eq_singleton hbd i hi)
  funext a
  apply Fin.ext
  rcases fin2_cases a with rfl | rfl
  · -- the row axis: collapsed, component 0 of the start index
    exact operandIdx_collapsed d hivd hob _ idx e he 0 (0 : Fin 1) (by rw [hcoll]; simp) (by rw [hsim]; simp)
      (by rw [hsim]; rfl) (by rw [hsl]; rfl)
  · -- the column axis: kept and not start-indexed, read at the result's offset coordinate
    exact operandIdx_offset d hob _ idx 1 1 hoff (by rw [GatherDims.mem_sKept, hcoll, hob]; simp) (by rw [hsim]; simp)

/-- ROWS OF A RANK-3 ARRAY BY A PAIR OF INDICES. The gather whose start indices are an [E × 2]
    table, whose operand axes 0 and 1 are collapsed and named, in that order, by the start index
    map, and whose operand axis 2 is the result's offset axis reads, at result position (e, h), the
    array at (`idx[e, 0]`, `idx[e, 1]`, h), each index read as a signed integer and clamped into its
    axis: [0, N − 1] and [0, R − 1]. -/
theorem gather_pair_rows_apply (d : GatherDims ⟨3, ![N, R, H]⟩ ⟨2, ![E, 2]⟩ ⟨2, ![E, H]⟩)
    (hoff : d.offsetDims = [1]) (hcoll : d.collapsedSliceDims = [0, 1]) (hob : d.operandBatchingDims = [])
    (hsim : d.startIndexMap = [0, 1]) (hivd : d.indexVectorDim = 1) (hsl : d.sliceSizes = ![1, 1, H])
    (x : (⟨3, ![N, R, H]⟩ : Shape).Idx → α) (idx : IVec ⟨2, ![E, 2]⟩ w) (e : Fin E) (h : Fin H) (hN : 0 < N) (hR : 0 < R) :
    Host.gather d x idx (ix2 e h)
      = x (ix3 ⟨min (idx (ix2 e (0 : Fin 2))).toInt.toNat (N - 1), by omega⟩ ⟨min (idx (ix2 e (1 : Fin 2))).toInt.toNat (R - 1), by omega⟩ h) := by
  unfold Host.gather
  congr 1
  -- the result's one batch axis is axis 0: the axes of [E × H] outside the offset axes [1]
  have hbd : d.batchDims = [0] := by
    show Shape.kept _ d.offsetDims = [0]
    rw [hoff]; rfl
  have he : ∀ (i : Nat) (hi : i < d.batchDims.length), ((ix2 e h : (⟨2, ![E, H]⟩ : Shape).Idx) d.batchDims[i]).val = e.val :=
    fun i hi => idx_val_congr (ix2 e h) (getElem_of_eq_singleton hbd i hi)
  funext a
  apply Fin.ext
  rcases fin3_cases a with rfl | rfl | rfl
  · -- the first axis: collapsed, component 0 of the start index
    exact operandIdx_collapsed d hivd hob _ idx e he 0 (0 : Fin 2) (by rw [hcoll]; simp) (by rw [hsim]; simp)
      (by rw [hsim]; rfl) (by rw [hsl]; rfl)
  · -- the second axis: collapsed, component 1 of the start index
    exact operandIdx_collapsed d hivd hob _ idx e he 1 (1 : Fin 2) (by rw [hcoll]; simp) (by rw [hsim]; simp)
      (by rw [hsim]; rfl) (by rw [hsl]; rfl)
  · -- the last axis: kept and not start-indexed, read at the result's offset coordinate
    exact operandIdx_offset d hob _ idx 2 1 hoff (by rw [GatherDims.mem_sKept, hcoll, hob]; simp) (by rw [hsim]; simp)

/-- ONE ENTRY OF A MATRIX BY A PAIR OF INDICES. The gather whose start indices are an [E × 2]
    table, whose two operand axes are both collapsed and named, in order, by the start index map,
    and whose result has no offset axis reads, at result position e, the matrix at
    (`idx[e, 0]`, `idx[e, 1]`), each index read as a signed integer and clamped into its axis:
    [0, N − 1] and [0, R − 1]. -/
theorem gather_pair_scalar_apply (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1) (hsl : d.sliceSizes = ![1, 1])
    (x : (⟨2, ![N, R]⟩ : Shape).Idx → α) (idx : IVec ⟨2, ![E, 2]⟩ w) (e : Fin E) (hN : 0 < N) (hR : 0 < R) :
    Host.gather d x idx (ix1 e)
      = x (ix2 ⟨min (idx (ix2 e (0 : Fin 2))).toInt.toNat (N - 1), by omega⟩ ⟨min (idx (ix2 e (1 : Fin 2))).toInt.toNat (R - 1), by omega⟩) := by
  unfold Host.gather
  congr 1
  -- the result's one axis is its batch axis: there are no offset axes
  have hbd : d.batchDims = [0] := by
    show Shape.kept _ d.offsetDims = [0]
    rw [hoff]; rfl
  have he : ∀ (i : Nat) (hi : i < d.batchDims.length), ((ix1 e : (⟨1, ![E]⟩ : Shape).Idx) d.batchDims[i]).val = e.val :=
    fun i hi => idx_val_congr (ix1 e) (getElem_of_eq_singleton hbd i hi)
  funext a
  apply Fin.ext
  rcases fin2_cases a with rfl | rfl
  · -- the first axis: collapsed, component 0 of the start index
    exact operandIdx_collapsed d hivd hob _ idx e he 0 (0 : Fin 2) (by rw [hcoll]; simp) (by rw [hsim]; simp)
      (by rw [hsim]; rfl) (by rw [hsl]; rfl)
  · -- the second axis: collapsed, component 1 of the start index
    exact operandIdx_collapsed d hivd hob _ idx e he 1 (1 : Fin 2) (by rw [hcoll]; simp) (by rw [hsim]; simp)
      (by rw [hsim]; rfl) (by rw [hsl]; rfl)

end Cert.LibIndexing
-- ==== Proof.LibScatterAt.lean ====
/-
  A StableHLO accumulating scatter of rows into a matrix, read at one result index over the extended
  reals. The scatter indices are an [E × 1] column (index vector on axis 1), the operand's axis 0
  is the inserted, scattered axis and its axis 1 is the update's window axis: update row `e` is added
  onto operand row `idx[e, 0]`, the index read as a signed integer and NOT clamped; a row whose index
  lies outside [0, N) is dropped. The dimension-number record is a variable and its printed fields
  are hypotheses, so the lemmas hold at every size.
-/
import Idealize.ShloMosaic.PureOps.Ideal
import Idealize.ShloMosaic.PureOps.Contract
import Idealize.ShloMosaic.PureOps.Dims
import Idealize.ShloMosaic.Lib.ValueIdx

namespace Cert.LibScatterAt

open Idealize.ShloMosaic Idealize.ShloMosaic.ValueIdx
open scoped BigOperators

variable {N H E w : Nat}

/-- An entry of a one-element list is that element, whatever the position is written as. -/
private theorem getElem_of_eq_singleton {β : Type} {l : List β} {b : β} (hl : l = [b]) (i : Nat)
    (hi : i < l.length) : l[i] = b := by
  subst hl
  have hi0 : i = 0 := by simpa using hi
  subst hi0
  rfl

/-- A multi-index read on two equal axes gives the same number. -/
private theorem idx_val_congr {s : Shape} (j : s.Idx) {a b : Fin s.rank} (hab : a = b) :
    (j a).val = (j b).val := by
  subst hab; rfl

/-- The two axes of a rank-2 shape. -/
private theorem fin2_cases (a : Fin 2) : a = 0 ∨ a = 1 := by
  rcases a with ⟨v, hv⟩
  rcases v with _ | _ | v
  · exact Or.inl rfl
  · exact Or.inr rfl
  · omega

section
variable (d : ScatterDims ⟨2, ![N, H]⟩ ⟨2, ![E, 1]⟩ ⟨2, ![E, H]⟩)
  (huw : d.updateWindowDims = [1]) (hiw : d.insertedWindowDims = [0])
  (hsd : d.scatterDimsToOperandDims = [0]) (hivd : d.indexVectorDim = 1)
include huw hiw hsd hivd

/-- On the scattered axis the window of update (e, h) starts at the index column's entry `e`, read signed. -/
private theorem start_zero (idx : IVec ⟨2, ![E, 1]⟩ w) (e : Fin E) (h : Fin H) :
    d.start (ix2 e h) idx 0 = (idx (ix2 e (0 : Fin 1))).toInt := by
  have hm : (0 : Fin 2) ∈ d.scatterDimsToOperandDims := by rw [hsd]; simp
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    exact idx_val_congr (ix2 e h) (getElem_of_eq_singleton hus _ _)
  | ⟨1, _⟩ =>
    unfold ScatterDims.siIdx
    rw [dif_pos (by rw [hivd])]
    apply Fin.ext
    show d.scatterDimsToOperandDims.idxOf 0 = 0
    rw [hsd]; rfl

/-- On the window axis it starts at 0. -/
private theorem start_one (idx : IVec ⟨2, ![E, 1]⟩ w) (e : Fin E) (h : Fin H) :
    d.start (ix2 e h) idx 1 = 0 := by
  unfold ScatterDims.start
  rw [dif_neg (by rw [hsd]; simp)]

/-- The scattered axis is inserted: no window coordinate there. -/
private theorem window_zero (e : Fin E) (h : Fin H) : d.window (ix2 e h) 0 = 0 := by
  unfold ScatterDims.window
  have hk : d.sKept = [1] := by
    show Shape.kept _ d.insertedWindowDims = [1]
    rw [hiw]; rfl
  rw [dif_neg (by rw [hk]; simp)]

/-- On the window axis the window coordinate is the update's column. -/
private theorem window_one (e : Fin E) (h : Fin H) : d.window (ix2 e h) 1 = h.val := by
  unfold ScatterDims.window
  have hk : d.sKept = [1] := by
    show Shape.kept _ d.insertedWindowDims = [1]
    rw [hiw]; rfl
  rw [dif_pos (by rw [hk]; simp)]
  exact idx_val_congr (ix2 e h) (getElem_of_eq_singleton huw _ _)

/-- WHERE AN UPDATE LANDS. Update (e, h) lands on operand position `i` exactly when the index
    column's entry `e`, read as a signed integer, is `i`'s row and `h` is `i`'s column; an index
    outside [0, N) lands nowhere. -/
theorem resultIdx?_rows (idx : IVec ⟨2, ![E, 1]⟩ w) (e : Fin E) (h : Fin H)
    (i : (⟨2, ![N, H]⟩ : Shape).Idx) :
    d.resultIdx? (ix2 e h) idx = some i
      ↔ (idx (ix2 e (0 : Fin 1))).toInt = ((i 0).val : Int) ∧ h = i 1 := by
  have s0 := start_zero d huw hiw hsd hivd idx e h
  have s1 := start_one d huw hiw hsd hivd idx e h
  have w0 := window_zero d huw hiw hsd hivd e h
  have w1 := window_one d huw hiw hsd hivd e h
  have hi0 : (i 0).val < N := (i 0).isLt
  have hi1 : (i 1).val < H := (i 1).isLt
  have hh : h.val < H := h.isLt
  unfold ScatterDims.resultIdx?
  by_cases hall : ∀ a, 0 ≤ d.start (ix2 e h) idx a + d.window (ix2 e h) a
      ∧ d.start (ix2 e h) idx a + d.window (ix2 e h) a < (⟨2, ![N, H]⟩ : Shape).size a
  · rw [dif_pos hall]
    have a0 := hall 0
    have a1 := hall 1
    rw [s0, w0] at a0
    rw [s1, w1] at a1
    constructor
    · intro hs
      have hi := Option.some.inj hs
      have e0 : (d.start (ix2 e h) idx 0 + d.window (ix2 e h) 0).toNat = (i 0).val :=
        congrArg (fun f : (⟨2, ![N, H]⟩ : Shape).Idx => (f 0).val) hi
      have e1 : (d.start (ix2 e h) idx 1 + d.window (ix2 e h) 1).toNat = (i 1).val :=
        congrArg (fun f : (⟨2, ![N, H]⟩ : Shape).Idx => (f 1).val) hi
      rw [s0, w0] at e0
      rw [s1, w1] at e1
      exact ⟨by omega, Fin.ext (by omega)⟩
    · rintro ⟨h0, h1⟩
      congr 1
      funext a
      apply Fin.ext
      rcases fin2_cases a with rfl | rfl
      · show (d.start (ix2 e h) idx 0 + d.window (ix2 e h) 0).toNat = (i 0).val
        rw [s0, w0]; omega
      · show (d.start (ix2 e h) idx 1 + d.window (ix2 e h) 1).toNat = (i 1).val
        rw [s1, w1, h1]; omega
  · rw [dif_neg hall]
    constructor
    · intro hs; cases hs
    · rintro ⟨h0, h1⟩
      exfalso
      apply hall
      intro a
      rcases fin2_cases a with rfl | rfl
      · rw [s0, w0]
        show 0 ≤ _ + ((0 : ℕ) : Int) ∧ _ + ((0 : ℕ) : Int) < (N : Int)
        omega
      · rw [s1, w1]
        show (0 : Int) ≤ 0 + (h.val : Int) ∧ 0 + (h.val : Int) < (H : Int)
        omega

/-- THE ACCUMULATING SCATTER AT AN INDEX. Over the extended reals the result at (v, c) is the
    operand's entry there plus the sum, over the update rows `e` whose index is `v`, of the
    update's entry (e, c). -/
theorem scatterAdd_rows_apply (x : (⟨2, ![N, H]⟩ : Shape).Idx → EReal) (idx : IVec ⟨2, ![E, 1]⟩ w)
    (upd : (⟨2, ![E, H]⟩ : Shape).Idx → EReal) (v : Fin N) (c : Fin H) :
    Ideal.hostScatterAdd d x idx upd (ix2 v c)
      = x (ix2 v c) + ∑ e : Fin E, if (idx (ix2 e (0 : Fin 1))).toInt = (v.val : Int) then upd (ix2 e c) else 0 := by
  unfold Ideal.hostScatterAdd
  congr 1
  rw [Finset.sum_filter, sum_idx2]
  apply Finset.sum_congr rfl
  intro e _
  have key : ∀ h : Fin H, (if d.resultIdx? (ix2 e h) idx = some (ix2 v c) then upd (ix2 e h) else 0)
      = if (idx (ix2 e (0 : Fin 1))).toInt = (v.val : Int) ∧ h = c then upd (ix2 e h) else 0 := fun h =>
    if_congr (resultIdx?_rows d huw hiw hsd hivd idx e h (ix2 v c)) rfl rfl
  show ∑ h : Fin H, (if d.resultIdx? (ix2 e h) idx = some (ix2 v c) then upd (ix2 e h) else 0) = _
  rw [Finset.sum_congr rfl fun h _ => key h]
  by_cases hv : (idx (ix2 e (0 : Fin 1))).toInt = (v.val : Int)
  · simp only [hv, true_and, if_true]
    exact (Finset.sum_ite_eq' Finset.univ c fun h => upd (ix2 e h)).trans (if_pos (Finset.mem_univ c))
  · simp only [hv, false_and, if_false]
    exact Finset.sum_const_zero

/-- The same of the printed operation: the host's accumulating scatter, read at the extended reals. -/
theorem host_scatterAdd_rows_apply {φ : FTy} (x : FVec Ideal ⟨2, ![N, H]⟩ φ) (idx : IVec ⟨2, ![E, 1]⟩ w)
    (upd : FVec Ideal ⟨2, ![E, H]⟩ φ) (v : Fin N) (c : Fin H) :
    Host.scatterAdd (F := Ideal) d x idx upd (ix2 v c)
      = x (ix2 v c) + ∑ e : Fin E, if (idx (ix2 e (0 : Fin 1))).toInt = (v.val : Int) then upd (ix2 e c) else 0 :=
  scatterAdd_rows_apply d huw hiw hsd hivd x idx upd v c

end

end Cert.LibScatterAt
-- ==== Proof.RefValue.lean ====
/-
  The reference's result at a node row `v` and a feature column `d`, over the extended reals: the
  sum, over the edges `e` whose destination word read signed is `v`, of x[src[e], d] times the edge's
  coefficient. The reference's accumulating scatter starts from a zero array and drops an update
  whose index is no node; its gather of x would wrap a negative index and clamp a large one, but
  under the precondition every src[e] is a node number and both leave it alone.
-/
import proofs.«420406_j83459804496279_2_alg».proof.Proof.Gen.ReferenceIdeal.Read
import proofs.«420406_j83459804496279_2_alg».proof.Proof.LibGatherAt
import proofs.«420406_j83459804496279_2_alg».proof.Proof.LibScatterAt
import Idealize.ShloMosaic.Lib.ValueIdx
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The reference's per-edge coefficient, a function of the two index arrays alone. -/
abbrev coef (x1 x2 : IVec S800000 32) : FVec Ideal S800000 .f32 := val_main_v21 (F := Ideal) x1 x2

theorem idx27 (e : Fin 800000) : idx_main_v27 (ix2 e (0 : Fin 1)) = ix1 e := by
  funext a; match a with | ⟨0, _⟩ => rfl
theorem idx33 (e : Fin 800000) : idx_main_v33 (ix2 e (0 : Fin 1)) = ix1 e := by
  funext a; match a with | ⟨0, _⟩ => rfl
theorem idx29 (e : Fin 800000) : idx_main_v29 (ix2 e (0 : Fin 1)) = ix1 e := by
  funext a; match a with | ⟨0, _⟩ => rfl
theorem idx30 (e : Fin 800000) (d : Fin 64) : idx_main_v30 (ix2 e d) = ix2 e (0 : Fin 1) := by
  funext a; match a with | ⟨0, _⟩ => rfl | ⟨1, _⟩ => rfl

/-- A node number is left alone by the wrap of negative indices. -/
theorem wrap_of_range (x1 : IVec S800000 32) (e : Fin 800000) (h : 0 ≤ (x1 (ix1 e)).toInt) :
    val_main_v26 (F := Ideal) x1 (ix1 e) = x1 (ix1 e) := by
  rw [val_main_v26_apply]
  have hc : val_main_v23 (F := Ideal) x1 (ix1 e) = 0#1 := by
    apply eq_zero_of_ne_one
    intro h1
    have h2 : IntOp.cmpi .slt (x1 (ix1 e)) 0#32 = 1#1 := h1
    unfold IntOp.cmpi at h2
    rw [StableHlo.Predicate.ofBool_eq_one_iff] at h2
    simp only [BitVec.slt, decide_eq_true_eq] at h2
    have z : (0#32 : BitVec 32).toInt = 0 := by decide
    omega
  rw [hc, select_zero]

/-- The gathered feature of edge `e`: row src[e] of x. -/
theorem gathered_apply (x0 : FVec Ideal S50000x64 .f32) (x1 : IVec S800000 32) (e : Fin 800000) (d : Fin 64)
    (h : 0 ≤ (x1 (ix1 e)).toInt ∧ (x1 (ix1 e)).toInt < 50000) (hn : (x1 (ix1 e)).toNat < 50000) :
    val_main_v28 (F := Ideal) x0 x1 (ix2 e d) = x0 (ix2 ⟨(x1 (ix1 e)).toNat, hn⟩ d) := by
  unfold val_main_v28
  rw [Cert.LibIndexing.gather_rows_apply gather_S50000x64_S800000x1_S800000x64_1_0_n_n_0_1_164 rfl rfl rfl rfl rfl rfl
    x0 (val_main_v27 (F := Ideal) x1) e d (by decide)]
  congr 1
  funext a
  match a with
  | ⟨0, _⟩ =>
    apply Fin.ext
    show min (val_main_v27 (F := Ideal) x1 (ix2 e (0 : Fin 1))).toInt.toNat (50000 - 1) = (x1 (ix1 e)).toNat
    rw [val_main_v27_apply, idx27, wrap_of_range x1 e h.1]
    have h32 := (x1 (ix1 e)).isLt
    have hc := BitVec.toInt_eq_toNat_cond (x1 (ix1 e))
    split at hc <;> omega
  | ⟨1, _⟩ => rfl

/-- The accumulating scatter at an index: the sum, over the edges whose destination word read signed
    is `v`, of the update's entry (e, d); the array scattered into is zero. -/
theorem scatter_apply (x0 : FVec Ideal S50000x64 .f32) (x1 x2 : IVec S800000 32) (v : Fin 50000) (d : Fin 64) :
    val_main_v34 (F := Ideal) x0 x1 x2 (ix2 v d)
      = ∑ e : Fin 800000, if (val_main_v33 (F := Ideal) x2 (ix2 e (0 : Fin 1))).toInt = (v.val : Int)
          then val_main_v31 (F := Ideal) x0 x1 x2 (ix2 e d) else 0 := by
  unfold val_main_v34
  refine (Cert.LibScatterAt.host_scatterAdd_rows_apply scatter_S50000x64_S800000x1_S800000x64_1_0_0_1 rfl rfl rfl rfl
    (val_main_v32 (F := Ideal)) (val_main_v33 (F := Ideal) x2) (val_main_v31 (F := Ideal) x0 x1 x2) v d).trans ?_
  have z : val_main_v32 (F := Ideal) (ix2 v d) = 0 := by
    rw [val_main_v32_apply, val_main_cst_7_apply]
    exact Ideal.ofBits_zero_f32
  rw [z, zero_add]

/-- THE REFERENCE AT AN INDEX. -/
theorem ref_apply (x0 : FVec Ideal S50000x64 .f32) (x1 x2 : IVec S800000 32)
    (hsrc : ∀ e : Fin 800000, 0 ≤ (x1 (ix1 e)).toInt ∧ (x1 (ix1 e)).toInt < 50000)
    (hn : ∀ e : Fin 800000, (x1 (ix1 e)).toNat < 50000) (v : Fin 50000) (d : Fin 64) :
    val_main_v34 (F := Ideal) x0 x1 x2 (ix2 v d)
      = ∑ e : Fin 800000, if (x2 (ix1 e)).toInt = (v.val : Int)
          then x0 (ix2 ⟨(x1 (ix1 e)).toNat, hn e⟩ d) * coef x1 x2 (ix1 e) else 0 := by
  rw [scatter_apply]
  apply Finset.sum_congr rfl
  intro e _
  rw [val_main_v33_apply, idx33, val_main_v31_apply, gathered_apply x0 x1 e d (hsrc e) (hn e), val_main_v30_apply, idx30,
    val_main_v29_apply, idx29, Ideal.mulf_def]

end Cert.ReferenceIdeal.RefValue

end
-- ==== Proof.SrcRange.lean ====
/-
  The added precondition, read back: every entry of the source-index array is a node number.
  The printed predicate is the conjunction of "every entry of x is finite" with the `all` of
  `(src ≥ 0) ∧ (src < 50000)`, both comparisons signed; it being 1 gives, at every edge,
  0 ≤ src[e] < 50000 as a signed integer, hence the same bound on the word read unsigned.
-/
import proofs.«420406_j83459804496279_2_alg».proof.Pre_finite_inputs
import Idealize.ShloMosaic.Lib.ReduceAll
import Idealize.ShloMosaic.Lib.StableHlo.Predicate
import Idealize.ShloMosaic.Lib.ValueIdx

namespace Cert.Sgc

open Idealize.ShloMosaic

/-- A word that passes the two signed comparisons is in [0, 50000) as a signed integer. -/
theorem word_in_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have f : (50000#32 : BitVec 32).toInt = 50000 := by decide
  omega

/-- Such a word, read unsigned, is below 50000 and is its own signed value. -/
theorem toNat_of_range (w : BitVec 32) (h : 0 ≤ w.toInt ∧ w.toInt < 50000) :
    w.toNat < 50000 ∧ w.toInt = (w.toNat : Int) := by
  have h32 := w.isLt
  have hc := BitVec.toInt_eq_toNat_cond w
  split at hc <;> omega

instance : Subsingleton Cert.Pre_finite_inputs.S_.Idx := ⟨fun a b => funext fun d => d.elim0⟩

/-- THE PRECONDITION DECODED at edge `e`. -/
theorem src_in_range {F : FTy → Type} [FloatOps F] [Cert.Pre_finite_inputs.Facts]
    (x : FVec F Cert.Pre_finite_inputs.S50000x64 .f32) (src dst : IVec Cert.Pre_finite_inputs.S800000 32)
    (h : Cert.Pre_finite_inputs.fn x src dst = fun _ => 1#1) (e : Cert.Pre_finite_inputs.S800000.Idx) :
    0 ≤ (src e).toInt ∧ (src e).toInt < 50000 := by
  have e0 := congrFun h ValueIdx.ix0
  dsimp only [Cert.Pre_finite_inputs.fn] at e0
  obtain ⟨-, h9⟩ := IntOp.andi_eq_one.1 e0
  have h8 := Host.reduce_andi_all _ _ _ _ _ h9 e
  obtain ⟨hge, hlt⟩ := IntOp.andi_eq_one.1 h8
  exact word_in_range _ hge hlt

end Cert.Sgc
-- ==== Proof.Bridge.lean ====
/-
  The two results are one function. Fix a node row v < 50000 and a feature column d.
  The reference's entry is the sum over all 800000 edges e of the edge's term
      [dst[e] = v] · x[src[e], d] · coef[e].
  The kernel's entry is the sum over the two halves, over the 3125 points of a half and over a
  point's 128 edges of the same term: an edge's mark "v is dst[e]" compares the word v with dst[e],
  which holds exactly when dst[e] read signed is v; and the marked sum over all 50048 table rows
  picks row src[e] of the padded table, which — src[e] being a node number below 50000, the
  precondition — is row src[e] of x. Edge 128·(3125·p + k) + j is edge j of point k of half p, and
  every edge is reached once: the triple sum is the sum over all edges.
-/
import proofs.«420406_j83459804496279_2_alg».proof.Proof.ResultAt
import proofs.«420406_j83459804496279_2_alg».proof.Proof.Blocks
import proofs.«420406_j83459804496279_2_alg».proof.Proof.RefValue
import proofs.«420406_j83459804496279_2_alg».proof.Proof.SrcRange
import Idealize.ShloMosaic.Lib.KernelVsHost

set_option maxRecDepth 16384

noncomputable section

namespace Cert.Bridge

open Idealize.ShloMosaic Idealize.ShloMosaic.TcCoe Idealize.ShloMosaic.ValueIdx Idealize.SL.Sem
open Cert.KernelIdeal.Accum Cert.KernelIdeal.KValue Cert.KernelIdeal.Blocks Cert.KernelIdeal.ResultAt
open scoped BigOperators

/-- One edge's term in the entry (v, d) of the result. -/
def edgeTerm (X : Cert.KernelIdeal.S50000x64.Idx → EReal) (S D : IVec Cert.KernelIdeal.S800000 32)
    (hn : ∀ e : Fin 800000, (S (ix1 e)).toNat < 50000) (v : Fin 50000) (d : Fin 64) (e : Fin 800000) : EReal :=
  if (D (ix1 e)).toInt = (v.val : Int) then X (ix2 ⟨(S (ix1 e)).toNat, hn e⟩ d) * Cert.ReferenceIdeal.RefValue.coef S D (ix1 e) else 0

/-- The same as a function of the edge's number, zero past the last edge. -/
def edgeTermN (X : Cert.KernelIdeal.S50000x64.Idx → EReal) (S D : IVec Cert.KernelIdeal.S800000 32)
    (hn : ∀ e : Fin 800000, (S (ix1 e)).toNat < 50000) (v : Fin 50000) (d : Fin 64) (e : ℕ) : EReal :=
  if h : e < 800000 then edgeTerm X S D hn v d ⟨e, h⟩ else 0

/-- A small word is the word of a table row exactly when the row is its number. -/
theorem ofNat_eq_iff (s : BitVec 32) (hs : s.toNat < 50048) (n : Fin 50048) :
    BitVec.ofNat 32 n.val = s ↔ n = ⟨s.toNat, hs⟩ := by
  have hn : n.val < 50048 := n.isLt
  constructor
  · intro h
    apply Fin.ext
    have := congrArg BitVec.toNat h
    rw [BitVec.toNat_ofNat] at this
    show n.val = s.toNat
    omega
  · intro h
    subst h
    apply BitVec.eq_of_toNat_eq
    rw [BitVec.toNat_ofNat]
    show s.toNat % 2 ^ 32 = s.toNat
    omega

/-- The marked sum over the table's rows picks the marked row. -/
theorem marked_sum (xp : Cert.KernelIdeal.S50048x64.Idx → EReal) (s : BitVec 32) (hs : s.toNat < 50048) (d : Fin 64) :
    ∑ n : Fin 50048, (if BitVec.ofNat 32 n.val = s then (1 : EReal) else 0) * xp (ix2 n d) = xp (ix2 ⟨s.toNat, hs⟩ d) := by
  rw [Finset.sum_congr rfl fun n _ => congrArg (· * xp (ix2 n d)) (if_congr (ofNat_eq_iff s hs n) rfl rfl)]
  exact Cert.Sgc.sum_onehot_mul (⟨s.toNat, hs⟩ : Fin 50048) fun n => xp (ix2 n d)

/-- The word v is the word w exactly when w read signed is v, for a node row v. -/
theorem ofNat_eq_iff_toInt (w : BitVec 32) (v : ℕ) (hv : v < 50048) : BitVec.ofNat 32 v = w ↔ w.toInt = (v : Int) := by
  constructor
  · intro h
    rw [← h]
    exact StableHlo.Predicate.toInt_ofNat_small v (by omega)
  · intro h
    apply BitVec.eq_of_toNat_eq
    rw [BitVec.toNat_ofNat]
    have h32 := w.isLt
    have hc := BitVec.toInt_eq_toNat_cond w
    split at hc <;> omega

variable (m : (ℓ : Loc Cert.KernelIdeal.nD Cert.KernelIdeal.τ Cert.KernelIdeal.sig) → Buf (Elt Ideal) ℓ)

/-- A row of the padded table above the padding is the row of x. -/
theorem xpad_apply (c : Dev Cert.KernelIdeal.nD) (s : ℕ) (hs : s < 50000) (d : Fin 64) :
    Cert.KernelIdeal.Gen.V m c Cert.KernelIdeal.main_v23 (ix2 (⟨s, by omega⟩ : Fin 50048) d)
      = m ((c : Thread Cert.KernelIdeal.nD Cert.KernelIdeal.τ).loc Cert.KernelIdeal.main_arg0) (ix2 (⟨s, hs⟩ : Fin 50000) d) := by
  rw [V_xpad, truncf_apply]
  exact pad_apply_of_inside _ _ _ _ _ _ _ _ (ix2 (⟨s, hs⟩ : Fin 50000) d) fun a => by
    match a with
    | ⟨0, _⟩ => show s = 0 + s * (0 + 1); omega
    | ⟨1, _⟩ => show d.val = 0 + d.val * (0 + 1); omega

section
variable (c : Dev Cert.KernelIdeal.nD)
  (hsrc : ∀ e : Fin 800000, 0 ≤ (m ((c : Thread Cert.KernelIdeal.nD Cert.KernelIdeal.τ).loc Cert.KernelIdeal.main_arg1) (ix1 e)).toInt
    ∧ (m ((c : Thread Cert.KernelIdeal.nD Cert.KernelIdeal.τ).loc Cert.KernelIdeal.main_arg1) (ix1 e)).toInt < 50000)
  (hn : ∀ e : Fin 800000, (m ((c : Thread Cert.KernelIdeal.nD Cert.KernelIdeal.τ).loc Cert.KernelIdeal.main_arg1) (ix1 e)).toNat < 50000)
include hsrc

/-- A POINT'S CONTRIBUTION is the sum of its 128 edges' terms. -/
theorem contrib_eq (v : Fin 50000) (d : Fin 64) (n : Fin 50048) (hnv : n.val = v.val) (t : Fin Cert.KernelIdeal.cfg0.N)
    (hb : ∀ j : Fin 128, 128 * t.val + j.val < 800000) :
    contrib m c n d t = ∑ j : Fin 128,
      edgeTerm (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)) hn v d ⟨128 * t.val + j.val, hb j⟩ := by
  unfold contrib
  apply Finset.sum_congr rfl
  intro j _
  rw [dblk_apply m c t j ⟨128 * t.val + j.val, hb j⟩ rfl, sblk_apply m c t j ⟨128 * t.val + j.val, hb j⟩ rfl,
    nblk_apply m c t j ⟨128 * t.val + j.val, hb j⟩ rfl, Cert.KernelIdeal.Gen.V_main_arg1, Cert.KernelIdeal.Gen.V_main_arg2, V_coef]
  rw [Finset.sum_congr rfl fun n' _ => congrArg (_ * ·) (xblk_apply m c t n' d)]
  have hs := hn ⟨128 * t.val + j.val, hb j⟩
  rw [marked_sum _ _ (by omega) d, xpad_apply m c _ hs d]
  unfold edgeTerm
  by_cases hv : (m ((c : Thread Cert.KernelIdeal.nD Cert.KernelIdeal.τ).loc Cert.KernelIdeal.main_arg2) (ix1 ⟨128 * t.val + j.val, hb j⟩)).toInt = (v.val : Int)
  · rw [if_pos hv, if_pos ((ofNat_eq_iff_toInt _ n.val n.isLt).2 (by rw [hnv]; exact hv)), one_mul]
  · rw [if_neg hv, if_neg (fun h => hv (by have := (ofNat_eq_iff_toInt _ n.val n.isLt).1 h; rw [hnv] at this; exact this)), zero_mul]

/-- The same for a point given by its number. -/
theorem contribN_eq (v : Fin 50000) (d : Fin 64) (n : Fin 50048) (hnv : n.val = v.val) (t : ℕ) (ht : t < 6250) :
    contribN m c n d t = ∑ j : Fin 128,
      edgeTermN (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)) hn v d (128 * t + j.val) := by
  have hN : t < Cert.KernelIdeal.cfg0.N := by rw [N_eq]; exact ht
  have hb : ∀ j : Fin 128, 128 * t + j.val < 800000 := fun j => by have := j.isLt; omega
  unfold contribN
  rw [dif_pos hN, contrib_eq m c hsrc hn v d n hnv ⟨t, hN⟩ hb]
  apply Finset.sum_congr rfl
  intro j _
  unfold edgeTermN
  rw [dif_pos (hb j)]

/-- THE TWO RESULTS ARE EQUAL. -/
theorem result_eq :
    result (F := Ideal) m c
      = Cert.ReferenceIdeal.Read.val_main_v34 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  have hn : ∀ e : Fin 800000,
      (m ((c : Thread Cert.KernelIdeal.nD Cert.KernelIdeal.τ).loc Cert.KernelIdeal.main_arg1) (ix1 e)).toNat < 50000 :=
    fun e => (Cert.Sgc.toNat_of_range _ (hsrc e)).1
  funext i
  obtain ⟨v, d, rfl⟩ : ∃ (v : Fin 50000) (d : Fin 64), i = ix2 v d := ⟨i 0, i 1, eq_ix2 i⟩
  have hv : v.val < 50048 := by have := v.isLt; omega
  rw [Cert.ReferenceIdeal.RefValue.ref_apply _ _ _ hsrc hn v d, result_apply m c v d ⟨v.val, hv⟩ rfl]
  -- each half's slab entry is the sum of its points' edge terms
  have hslab : ∀ p : Fin 2, outArr m c (ix3 p (⟨v.val, hv⟩ : Fin 50048) d)
      = ∑ k : Fin 3125, ∑ j : Fin 128,
          edgeTermN (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2)) hn v d
            (128 * (3125 * p.val + k.val) + j.val) := by
    intro p
    have hp : p.val < 2 := p.isLt
    show acc m c (3125 * p.val + 3124) (last_lt p.val hp) (ix3 (0 : Fin 1) (⟨v.val, hv⟩ : Fin 50048) d) = _
    rw [acc_last m c _ d p.val _, Finset.sum_range]
    apply Finset.sum_congr rfl
    intro k _
    have hk : k.val < 3125 := k.isLt
    exact contribN_eq m c hsrc hn v d _ rfl (3125 * p.val + k.val) (by omega)
  rw [Finset.sum_congr rfl fun p _ => hslab p]
  -- the reference's sum, each term by the edge's number
  have hR : (∑ e : Fin 800000, edgeTerm (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)) hn v d e)
      = ∑ e : Fin 800000, edgeTermN (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) hn v d e.val :=
    Finset.sum_congr rfl fun e _ => by
      unfold edgeTermN
      rw [dif_pos e.isLt]
  refine Eq.trans ?_ hR.symm
  -- 800000 edges = 6250 points of 128 = 2 halves of 3125 points of 128
  symm
  exact (Cert.Sgc.sum_fin_mul 6250 128 fun e : Fin (6250 * 128) =>
      edgeTermN (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)) hn v d e.val).trans
    (Cert.Sgc.sum_fin_mul 2 3125 fun t : Fin (2 * 3125) => ∑ j : Fin 128,
      edgeTermN (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)) hn v d (128 * t.val + j.val))

end

end Cert.Bridge

end
-- ==== Proof.lean ====
/- The proof of `Cert.Claim`: degree-normalised neighbour aggregation,
       h[v, d] = Σ over edges e with dst[e] = v of x[src[e], d] / sqrt(deg[src[e]] · deg[dst[e]]),
   computed by the kernel with two 0/1-matrix products per block of 128 edges (one that picks row
   src[e] of the node features, one that adds the scaled row onto node dst[e]) accumulated over two
   halves of 3125 blocks, against the reference's gather, multiply and accumulating scatter.
   Precondition: x finite and every src[e] a node number, 0 ≤ src[e] < 50000 (outside it the
   reference's own gathers index out of range and the two programs differ). Over the extended reals
   both results are, at (v, d), the sum over the edges with dst[e] = v of x[src[e], d] times the
   edge's coefficient — the coefficient array is computed on the host by the same operations in
   both programs, and nothing is asked of dst: an edge whose dst is no node is dropped by both.
   Proof/Sums.lean            the sums used (one-hot row, mask, running sum with resets, regrouping)
   Proof/LibGatherAt.lean     a gather of matrix rows read at an index
   Proof/LibScatterAt.lean    an accumulating scatter of matrix rows read at an index
   Proof/LibDotAt.lean        a one-axis contraction of two matrices read at an index
   Proof/SrcRange.lean        the precondition read back: 0 ≤ src[e] < 50000
   Proof/PiecesIdeal.lean     what one grid point leaves, as ONE step function
   Proof/StepAt.lean          the step at an index
   Proof/Accum.lean           the accumulator point by point, and its closed form
   Proof/Blocks.lean          the point's blocks read off the arrays; the arrays the region finds
   Proof/KValue.lean          the output array after the run, the host tail, the kernel's run re-posted
   Proof/ResultAt.lean        the kernel's result at an index
   Proof/RefValue.lean        the reference's result at an index
   Proof/Bridge.lean          the two are equal
   The three frames: the two kernels' are the generated frame runs; the reference's is its generated
   run with the result dropped. The idealization rewrote nothing, so `preserves` is `True`. -/
import proofs.«420406_j83459804496279_2_alg».proof.Defs
import proofs.«420406_j83459804496279_2_alg».proof.Proof.Gen.Kernel
import proofs.«420406_j83459804496279_2_alg».proof.Proof.Gen.Kernel.Skeleton
import proofs.«420406_j83459804496279_2_alg».proof.Proof.Gen.Kernel.Launch
import proofs.«420406_j83459804496279_2_alg».proof.Proof.Gen.Kernel.Points
import proofs.«420406_j83459804496279_2_alg».proof.Proof.Gen.Kernel.Frame
import proofs.«420406_j83459804496279_2_alg».proof.Proof.Gen.KernelIdeal
import proofs.«420406_j83459804496279_2_alg».proof.Proof.Gen.KernelIdeal.Skeleton
import proofs.«420406_j83459804496279_2_alg».proof.Proof.Gen.KernelIdeal.Launch
import proofs.«420406_j83459804496279_2_alg».proof.Proof.Gen.KernelIdeal.Points
import proofs.«420406_j83459804496279_2_alg».proof.Proof.Gen.KernelIdeal.Frame
import proofs.«420406_j83459804496279_2_alg».proof.Proof.Gen.ReferenceIdeal
import proofs.«420406_j83459804496279_2_alg».proof.Proof.Gen.ReferenceIdeal.Run
import proofs.«420406_j83459804496279_2_alg».proof.Proof.Gen.ReferenceIdeal.Read
import proofs.«420406_j83459804496279_2_alg».proof.Proof.Gen.Pre_finite_inputs
import proofs.«420406_j83459804496279_2_alg».proof.Proof.Bridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result array ends at the sum of its two halves' accumulators, rows
    0 … 49999 (the frame run read back), and the reference's at its accumulating scatter (its generated run),
    of arguments that agree: one function, given that every source index is a node number. -/
theorem algebraic : Cert.algebraic_KernelIdeal_ReferenceIdeal := by
  intro m ρ m' ρ' hpre hagree
  refine ⟨fun c => Cert.KernelIdeal.KValue.result (F := Ideal) m c, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2]
  exact (Cert.Bridge.result_eq m c fun e => Cert.Sgc.src_in_range _ _ _ (hpre c) (ix1 e)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
